-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v41) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S1600000 : Shape := ⟨1, ![1600000]⟩
abbrev S2x1600000 : Shape := ⟨2, ![2, 1600000]⟩
abbrev S_ : Shape := ⟨0, ![]⟩
abbrev S1x1600000 : Shape := ⟨2, ![1, 1600000]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S1600000 : S_.BroadcastsInDim S1600000 (![] : Fin 0 → Fin S1600000.rank)
  reducesTo_S1600000_S_d0 : S1600000.ReducesTo [0] S_
  slices_S2x1600000_S1x1600000_0_0 : S2x1600000.Slices ![0, 0] S1x1600000
  shapeCasts_S1x1600000_S1600000 : S1x1600000.ShapeCasts S1600000

variable [Facts]

def fn_part1 {F : FTy → Type} [FloatOps F] (main_v8 : IVec S_ 1) (main_v17 : IVec S1600000 1) : IVec S_ 1 :=
  let main_c_4 : IVec S_ 1 := constantI S_ 1 1#1
  let main_v18 : IVec S_ 1 := (fun x v => Host.reduce IntOp.andi x v reducesTo_S1600000_S_d0 h_S_) main_v17 main_c_4
  let main_v19 : IVec S_ 1 := andi main_v8 main_v18
  main_v19

def fn {F : FTy → Type} [FloatOps F] (main_arg0 : FVec F S100000x48 .f32) (main_arg1 : FVec F S1600000 .f32) (main_arg2 : IVec S2x1600000 32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : IVec S1x1600000 32 := (extractStridedSlice S1x1600000 ![0, 0] · slices_S2x1600000_S1x1600000_0_0) main_arg2
  let main_v10 : IVec S1600000 32 := shapeCast S1600000 main_v9 shapeCasts_S1x1600000_S1600000
  let main_c_2 : IVec S_ 32 := constantI S_ 32 4294867296#32
  let main_v11 : IVec S1600000 32 := broadcastInDim S1600000 ![] bcast_S_S1600000 main_c_2
  let main_v12 : IVec S1600000 1 := cmpi .sge main_v10 main_v11
  let main_v13 : IVec S1x1600000 32 := (extractStridedSlice S1x1600000 ![0, 0] · slices_S2x1600000_S1x1600000_0_0) main_arg2
  let main_v14 : IVec S1600000 32 := shapeCast S1600000 main_v13 shapeCasts_S1x1600000_S1600000
  let main_c_3 : IVec S_ 32 := constantI S_ 32 100000#32
  let main_v15 : IVec S1600000 32 := broadcastInDim S1600000 ![] bcast_S_S1600000 main_c_3
  let main_v16 : IVec S1600000 1 := cmpi .slt main_v14 main_v15
  let main_v17 : IVec S1600000 1 := andi main_v12 main_v16
  fn_part1 (F := F) main_v8 main_v17
-- ==== Kernel.lean ====
abbrev S100000x48 : Shape := ⟨2, ![100000, 48]⟩
abbrev S1600000 : Shape := ⟨1, ![1600000]⟩
abbrev S2x1600000 : Shape := ⟨2, ![2, 1600000]⟩
abbrev S1x1600000 : Shape := ⟨2, ![1, 1600000]⟩
abbrev S_ : Shape := ⟨0, ![]⟩
abbrev S1605632 : Shape := ⟨1, ![1605632]⟩
abbrev S1605632x1 : Shape := ⟨2, ![1605632, 1]⟩
abbrev S5000x48 : Shape := ⟨2, ![5000, 48]⟩
abbrev S1 : Shape := ⟨1, ![1]⟩
abbrev S1x1 : Shape := ⟨2, ![1, 1]⟩
abbrev S1605632x48 : Shape := ⟨2, ![1605632, 48]⟩
abbrev S8192x48 : Shape := ⟨2, ![8192, 48]⟩
abbrev S8192x1 : Shape := ⟨2, ![8192, 1]⟩

abbrev nBuf : Space → Nat
  | .hbm => 78
  | .vmem => 30
  | .smem => 0
  | _ => 0

abbrev bufTy : (tb : Table) → Fin (tcTables nBuf tb) → BufTy
  | .hbm, ⟨0, _⟩ => ⟨S100000x48, .f32⟩
  | .hbm, ⟨1, _⟩ => ⟨S1600000, .f32⟩
  | .hbm, ⟨2, _⟩ => ⟨S2x1600000, .i32⟩
  | .hbm, ⟨3, _⟩ => ⟨S1x1600000, .i32⟩
  | .hbm, ⟨4, _⟩ => ⟨S1600000, .i32⟩
  | .hbm, ⟨5, _⟩ => ⟨S1x1600000, .i32⟩
  | .hbm, ⟨6, _⟩ => ⟨S1600000, .i32⟩
  | .hbm, ⟨7, _⟩ => ⟨S_, .i32⟩
  | .hbm, ⟨8, _⟩ => ⟨S_, .i32⟩
  | .hbm, ⟨9, _⟩ => ⟨S1605632, .i32⟩
  | .hbm, ⟨10, _⟩ => ⟨S_, .i32⟩
  | .hbm, ⟨11, _⟩ => ⟨S_, .i32⟩
  | .hbm, ⟨12, _⟩ => ⟨S1605632, .i32⟩
  | .hbm, ⟨13, _⟩ => ⟨S_, .i32⟩
  | .hbm, ⟨14, _⟩ => ⟨S_, .f32⟩
  | .hbm, ⟨15, _⟩ => ⟨S1605632, .f32⟩
  | .hbm, ⟨16, _⟩ => ⟨S1605632x1, .f32⟩
  | .hbm, ⟨17, _⟩ => ⟨S_, .f32⟩
  | .hbm, ⟨18, _⟩ => ⟨S100000x48, .f32⟩
  | .hbm, ⟨19, _⟩ => ⟨S100000x48, .f32⟩
  | .hbm, ⟨20, _⟩ => ⟨S_, .i32⟩
  | .hbm, ⟨21, _⟩ => ⟨S1605632, .i32⟩
  | .hbm, ⟨22, _⟩ => ⟨S1605632, .i1⟩
  | .hbm, ⟨23, _⟩ => ⟨S_, .i32⟩
  | .hbm, ⟨24, _⟩ => ⟨S1605632, .i32⟩
  | .hbm, ⟨25, _⟩ => ⟨S1605632, .i32⟩
  | .hbm, ⟨26, _⟩ => ⟨S1605632, .i32⟩
  | .hbm, ⟨27, _⟩ => ⟨S1605632x1, .i32⟩
  | .hbm, ⟨28, _⟩ => ⟨S1, .i32⟩
  | .hbm, ⟨29, _⟩ => ⟨S_, .i32⟩
  | .hbm, ⟨30, _⟩ => ⟨S1605632x1, .i32⟩
  | .hbm, ⟨31, _⟩ => ⟨S1605632x1, .i1⟩
  | .hbm, ⟨32, _⟩ => ⟨S1x1, .i32⟩
  | .hbm, ⟨33, _⟩ => ⟨S1605632x1, .i32⟩
  | .hbm, ⟨34, _⟩ => ⟨S1605632x1, .i1⟩
  | .hbm, ⟨35, _⟩ => ⟨S1605632x1, .i1⟩
  | .hbm, ⟨36, _⟩ => ⟨S_, .i1⟩
  | .hbm, ⟨37, _⟩ => ⟨S1605632, .i1⟩
  | .hbm, ⟨38, _⟩ => ⟨S1605632x48, .f32⟩
  | .hbm, ⟨39, _⟩ => ⟨S1605632x48, .i1⟩
  | .hbm, ⟨40, _⟩ => ⟨S_, .f32⟩
  | .hbm, ⟨41, _⟩ => ⟨S1605632x48, .f32⟩
  | .hbm, ⟨42, _⟩ => ⟨S1605632x48, .f32⟩
  | .hbm, ⟨43, _⟩ => ⟨S1605632x48, .f32⟩
  | .hbm, ⟨44, _⟩ => ⟨S_, .f32⟩
  | .hbm, ⟨45, _⟩ => ⟨S100000x48, .f32⟩
  | .hbm, ⟨46, _⟩ => ⟨S1605632x1, .i32⟩
  | .hbm, ⟨47, _⟩ => ⟨S100000x48, .f32⟩
  | .hbm, ⟨48, _⟩ => ⟨S100000x48, .f32⟩
  | .hbm, ⟨49, _⟩ => ⟨S_, .i32⟩
  | .hbm, ⟨50, _⟩ => ⟨S1605632, .i32⟩
  | .hbm, ⟨51, _⟩ => ⟨S1605632, .i1⟩
  | .hbm, ⟨52, _⟩ => ⟨S_, .i32⟩
  | .hbm, ⟨53, _⟩ => ⟨S1605632, .i32⟩
  | .hbm, ⟨54, _⟩ => ⟨S1605632, .i32⟩
  | .hbm, ⟨55, _⟩ => ⟨S1605632, .i32⟩
  | .hbm, ⟨56, _⟩ => ⟨S1605632x1, .i32⟩
  | .hbm, ⟨57, _⟩ => ⟨S1, .i32⟩
  | .hbm, ⟨58, _⟩ => ⟨S_, .i32⟩
  | .hbm, ⟨59, _⟩ => ⟨S1605632x1, .i32⟩
  | .hbm, ⟨60, _⟩ => ⟨S1605632x1, .i1⟩
  | .hbm, ⟨61, _⟩ => ⟨S1x1, .i32⟩
  | .hbm, ⟨62, _⟩ => ⟨S1605632x1, .i32⟩
  | .hbm, ⟨63, _⟩ => ⟨S1605632x1, .i1⟩
  | .hbm, ⟨64, _⟩ => ⟨S1605632x1, .i1⟩
  | .hbm, ⟨65, _⟩ => ⟨S_, .i1⟩
  | .hbm, ⟨66, _⟩ => ⟨S1605632, .i1⟩
  | .hbm, ⟨67, _⟩ => ⟨S1605632x48, .f32⟩
  | .hbm, ⟨68, _⟩ => ⟨S1605632x48, .i1⟩
  | .hbm, ⟨69, _⟩ => ⟨S_, .f32⟩
  | .hbm, ⟨70, _⟩ => ⟨S1605632x48, .f32⟩
  | .hbm, ⟨71, _⟩ => ⟨S1605632x48, .f32⟩
  | .hbm, ⟨72, _⟩ => ⟨S1605632x48, .f32⟩
  | .hbm, ⟨73, _⟩ => ⟨S_, .f32⟩
  | .hbm, ⟨74, _⟩ => ⟨S100000x48, .f32⟩
  | .hbm, ⟨75, _⟩ => ⟨S1605632x1, .i32⟩
  | .hbm, ⟨76, _⟩ => ⟨S100000x48, .f32⟩
  | .hbm, ⟨77, _⟩ => ⟨S100000x48, .f32⟩
  | .local _ .vmem, ⟨0, _⟩ => ⟨S5000x48, .f32⟩
  | .local _ .vmem, ⟨1, _⟩ => ⟨S5000x48, .f32⟩
  | .local _ .vmem, ⟨2, _⟩ => ⟨S5000x48, .f32⟩
  | .local _ .vmem, ⟨3, _⟩ => ⟨S5000x48, .f32⟩
  | .local _ .vmem, ⟨4, _⟩ => ⟨S5000x48, .f32⟩
  | .local _ .vmem, ⟨5, _⟩ => ⟨S5000x48, .f32⟩
  | .local _ .vmem, ⟨6, _⟩ => ⟨S8192x48, .f32⟩
  | .local _ .vmem, ⟨7, _⟩ => ⟨S8192x48, .f32⟩
  | .local _ .vmem, ⟨8, _⟩ => ⟨S8192x1, .f32⟩
  | .local _ .vmem, ⟨9, _⟩ => ⟨S8192x1, .f32⟩
  | .local _ .vmem, ⟨10, _⟩ => ⟨S8192x48, .f32⟩
  | .local _ .vmem, ⟨11, _⟩ => ⟨S8192x48, .f32⟩
  | .local _ .vmem, ⟨12, _⟩ => ⟨S5000x48, .f32⟩
  | .local _ .vmem, ⟨13, _⟩ => ⟨S5000x48, .f32⟩
  | .local _ .vmem, ⟨14, _⟩ => ⟨S5000x48, .f32⟩
  | .local _ .vmem, ⟨15, _⟩ => ⟨S5000x48, .f32⟩
  | .local _ .vmem, ⟨16, _⟩ => ⟨S5000x48, .f32⟩
  | .local _ .vmem, ⟨17, _⟩ => ⟨S5000x48, .f32⟩
  | .local _ .vmem, ⟨18, _⟩ => ⟨S8192x48, .f32⟩
  | .local _ .vmem, ⟨19, _⟩ => ⟨S8192x48, .f32⟩
  | .local _ .vmem, ⟨20, _⟩ => ⟨S8192x1, .f32⟩
  | .local _ .vmem, ⟨21, _⟩ => ⟨S8192x1, .f32⟩
  | .local _ .vmem, ⟨22, _⟩ => ⟨S8192x48, .f32⟩
  | .local _ .vmem, ⟨23, _⟩ => ⟨S8192x48, .f32⟩
  | .local _ .vmem, ⟨24, _⟩ => ⟨S5000x48, .f32⟩
  | .local _ .vmem, ⟨25, _⟩ => ⟨S5000x48, .f32⟩
  | .local _ .vmem, ⟨26, _⟩ => ⟨S5000x48, .f32⟩
  | .local _ .vmem, ⟨27, _⟩ => ⟨S5000x48, .f32⟩
  | .local _ .vmem, ⟨28, _⟩ => ⟨S5000x48, .f32⟩
  | .local _ .vmem, ⟨29, _⟩ => ⟨S5000x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_c_0 : Ref sig .tc := ⟨.hbm, 10, rfl⟩
abbrev main_call1_v0 : Ref sig .tc := ⟨.hbm, 11, rfl⟩
abbrev main_v5 : Ref sig .tc := ⟨.hbm, 12, rfl⟩
abbrev main_c_1 : Ref sig .tc := ⟨.hbm, 13, rfl⟩
abbrev main_call2_v0 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_call3_c : Ref sig .tc := ⟨.hbm, 20, rfl⟩
abbrev main_call3_v0 : Ref sig .tc := ⟨.hbm, 21, rfl⟩
abbrev main_call3_v1 : Ref sig .tc := ⟨.hbm, 22, rfl⟩
abbrev main_call3_c_0 : Ref sig .tc := ⟨.hbm, 23, rfl⟩
abbrev main_call3_v2 : Ref sig .tc := ⟨.hbm, 24, rfl⟩
abbrev main_call3_v3 : Ref sig .tc := ⟨.hbm, 25, rfl⟩
abbrev main_call3_v4 : Ref sig .tc := ⟨.hbm, 26, rfl⟩
abbrev main_call3_v5 : Ref sig .tc := ⟨.hbm, 27, rfl⟩
abbrev main_call3_c_1 : Ref sig .tc := ⟨.hbm, 28, rfl⟩
abbrev main_call3_c_2 : Ref sig .tc := ⟨.hbm, 29, rfl⟩
abbrev main_call3_v6 : Ref sig .tc := ⟨.hbm, 30, rfl⟩
abbrev main_call3_v7 : Ref sig .tc := ⟨.hbm, 31, rfl⟩
abbrev main_call3_v8 : Ref sig .tc := ⟨.hbm, 32, rfl⟩
abbrev main_call3_v9 : Ref sig .tc := ⟨.hbm, 33, rfl⟩
abbrev main_call3_v10 : Ref sig .tc := ⟨.hbm, 34, rfl⟩
abbrev main_call3_v11 : Ref sig .tc := ⟨.hbm, 35, rfl⟩
abbrev main_call3_c_3 : Ref sig .tc := ⟨.hbm, 36, rfl⟩
abbrev main_call3_v12 : Ref sig .tc := ⟨.hbm, 37, rfl⟩
abbrev main_call3_v13 : Ref sig .tc := ⟨.hbm, 38, rfl⟩
abbrev main_call3_v14 : Ref sig .tc := ⟨.hbm, 39, rfl⟩
abbrev main_call3_cst : Ref sig .tc := ⟨.hbm, 40, rfl⟩
abbrev main_call3_v15 : Ref sig .tc := ⟨.hbm, 41, rfl⟩
abbrev main_v10 : Ref sig .tc := ⟨.hbm, 42, rfl⟩
abbrev main_v11 : Ref sig .tc := ⟨.hbm, 43, rfl⟩
abbrev main_cst_2 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_call4_c : Ref sig .tc := ⟨.hbm, 49, rfl⟩
abbrev main_call4_v0 : Ref sig .tc := ⟨.hbm, 50, rfl⟩
abbrev main_call4_v1 : Ref sig .tc := ⟨.hbm, 51, rfl⟩
abbrev main_call4_c_0 : Ref sig .tc := ⟨.hbm, 52, rfl⟩
abbrev main_call4_v2 : Ref sig .tc := ⟨.hbm, 53, rfl⟩
abbrev main_call4_v3 : Ref sig .tc := ⟨.hbm, 54, rfl⟩
abbrev main_call4_v4 : Ref sig .tc := ⟨.hbm, 55, rfl⟩
abbrev main_call4_v5 : Ref sig .tc := ⟨.hbm, 56, rfl⟩
abbrev main_call4_c_1 : Ref sig .tc := ⟨.hbm, 57, rfl⟩
abbrev main_call4_c_2 : Ref sig .tc := ⟨.hbm, 58, rfl⟩
abbrev main_call4_v6 : Ref sig .tc := ⟨.hbm, 59, rfl⟩
abbrev main_call4_v7 : Ref sig .tc := ⟨.hbm, 60, rfl⟩
abbrev main_call4_v8 : Ref sig .tc := ⟨.hbm, 61, rfl⟩
abbrev main_call4_v9 : Ref sig .tc := ⟨.hbm, 62, rfl⟩
abbrev main_call4_v10 : Ref sig .tc := ⟨.hbm, 63, rfl⟩
abbrev main_call4_v11 : Ref sig .tc := ⟨.hbm, 64, rfl⟩
abbrev main_call4_c_3 : Ref sig .tc := ⟨.hbm, 65, rfl⟩
abbrev main_call4_v12 : Ref sig .tc := ⟨.hbm, 66, rfl⟩
abbrev main_call4_v13 : Ref sig .tc := ⟨.hbm, 67, rfl⟩
abbrev main_call4_v14 : Ref sig .tc := ⟨.hbm, 68, rfl⟩
abbrev main_call4_cst : Ref sig .tc := ⟨.hbm, 69, rfl⟩
abbrev main_call4_v15 : Ref sig .tc := ⟨.hbm, 70, rfl⟩
abbrev main_v16 : Ref sig .tc := ⟨.hbm, 71, rfl⟩
abbrev main_v17 : Ref sig .tc := ⟨.hbm, 72, rfl⟩
abbrev main_cst_3 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![196], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x48 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x48 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x48 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![196], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x48 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x48 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x48 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x48 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x48 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S1600000_S1605632_056320 : S1600000.Pads (![0] : Fin 1 → Nat) ![5632] ![0] S1605632
  h_S_ : 0 < S_.numel
  shapeCasts_S1605632_S1605632x1 : S1605632.ShapeCasts S1605632x1
  bcast_S_S100000x48 : S_.BroadcastsInDim S100000x48 (![] : Fin 0 → Fin S100000x48.rank)
  inb_S5000x48_S5000x48_0_0 : ∀ a, (![0, 0] : Fin 2 → Nat) a + S5000x48.size a ≤ S5000x48.size a
  h_S5000x48 : 0 < S5000x48.numel
  shapeCasts_S5000x48_S5000x48 : S5000x48.ShapeCasts S5000x48
  bcast_S_S1605632 : S_.BroadcastsInDim S1605632 (![] : Fin 0 → Fin S1605632.rank)
  bcast_S1605632_S1605632x1_0 : S1605632.BroadcastsInDim S1605632x1 (![0] : Fin 1 → Fin S1605632x1.rank)
  bcast_S_S1605632x1 : S_.BroadcastsInDim S1605632x1 (![] : Fin 0 → Fin S1605632x1.rank)
  bcast_S1_S1x1_1 : S1.BroadcastsInDim S1x1 (![1] : Fin 1 → Fin S1x1.rank)
  bcast_S1x1_S1605632x1_0_1 : S1x1.BroadcastsInDim S1605632x1 (![0, 1] : Fin 2 → Fin S1605632x1.rank)
  reducesTo_S1605632x1_S1605632_d1 : S1605632x1.ReducesTo [1] S1605632
  bcast_S1605632_S1605632x48_0 : S1605632.BroadcastsInDim S1605632x48 (![0] : Fin 1 → Fin S1605632x48.rank)
  bcast_S_S1605632x48 : S_.BroadcastsInDim S1605632x48 (![] : Fin 0 → Fin S1605632x48.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x48 : S8192x1.Broadcasts S8192x48
  inb_S8192x48_S8192x48_0_0 : ∀ a, (![0, 0] : Fin 2 → Nat) a + S8192x48.size a ≤ S8192x48.size a
  h_S8192x48 : 0 < S8192x48.numel
  shapeCasts_S8192x48_S8192x48 : S8192x48.ShapeCasts S8192x48
  gather_S100000x48_S1605632x1_S1605632x48_1_0_n_n_0_1_148_wf : GatherDims.WF S100000x48 S1605632x1 S1605632x48 [1] [0] [] [0] [] 1 ![1, 48]
  scatter_S100000x48_S1605632x1_S1605632x48_1_0_0_1_wf : ScatterDims.WF S100000x48 S1605632x1 S1605632x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x48.size a ≤ S100000x48.size a
  hwx0_0 : ∀ i : grid0.Coords, EltTy.bits .f32 = 32 ∨ (Rect.block (s := S100000x48) S5000x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x48.size a ≤ S100000x48.size a
  hwx0_1 : ∀ i : grid0.Coords, EltTy.bits .f32 = 32 ∨ (Rect.block (s := S100000x48) S5000x48.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x48.size a ≤ S100000x48.size a
  hwx0_2 : ∀ i : grid0.Coords, EltTy.bits .f32 = 32 ∨ (Rect.block (s := S100000x48) S5000x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x48.size a ≤ S1605632x48.size a
  hwx1_0 : ∀ i : grid1.Coords, EltTy.bits .f32 = 32 ∨ (Rect.block (s := S1605632x48) S8192x48.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1605632x1.size a
  hwx1_1 : ∀ i : grid1.Coords, EltTy.bits .f32 = 32 ∨ (Rect.block (s := S1605632x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x48.size a ≤ S1605632x48.size a
  hwx1_2 : ∀ i : grid1.Coords, EltTy.bits .f32 = 32 ∨ (Rect.block (s := S1605632x48) S8192x48.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x48.size a ≤ S100000x48.size a
  hwx2_0 : ∀ i : grid2.Coords, EltTy.bits .f32 = 32 ∨ (Rect.block (s := S100000x48) S5000x48.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x48.size a ≤ S100000x48.size a
  hwx2_1 : ∀ i : grid2.Coords, EltTy.bits .f32 = 32 ∨ (Rect.block (s := S100000x48) S5000x48.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x48.size a ≤ S100000x48.size a
  hwx2_2 : ∀ i : grid2.Coords, EltTy.bits .f32 = 32 ∨ (Rect.block (s := S100000x48) S5000x48.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x48.size a ≤ S1605632x48.size a
  hwx3_0 : ∀ i : grid3.Coords, EltTy.bits .f32 = 32 ∨ (Rect.block (s := S1605632x48) S8192x48.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S1605632x1.size a
  hwx3_1 : ∀ i : grid3.Coords, EltTy.bits .f32 = 32 ∨ (Rect.block (s := S1605632x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x48.size a ≤ S1605632x48.size a
  hwx3_2 : ∀ i : grid3.Coords, EltTy.bits .f32 = 32 ∨ (Rect.block (s := S1605632x48) S8192x48.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x48.size a ≤ S100000x48.size a
  hwx4_0 : ∀ i : grid4.Coords, EltTy.bits .f32 = 32 ∨ (Rect.block (s := S100000x48) S5000x48.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x48.size a ≤ S100000x48.size a
  hwx4_1 : ∀ i : grid4.Coords, EltTy.bits .f32 = 32 ∨ (Rect.block (s := S100000x48) S5000x48.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x48.size a ≤ S100000x48.size a
  hwx4_2 : ∀ i : grid4.Coords, EltTy.bits .f32 = 32 ∨ (Rect.block (s := S100000x48) S5000x48.size (cc4_transform_2 i) (hinb4_2 i)).WholeWords (EltTy.packing .f32)

variable [Facts₀]

def gather_S100000x48_S1605632x1_S1605632x48_1_0_n_n_0_1_148 : GatherDims S100000x48 S1605632x1 S1605632x48 where
  offsetDims := [1]
  collapsedSliceDims := [0]
  operandBatchingDims := []
  startIndicesBatchingDims := []
  startIndexMap := [0]
  indexVectorDim := 1
  sliceSizes := ![1, 48]
  wf := gather_S100000x48_S1605632x1_S1605632x48_1_0_n_n_0_1_148_wf
def scatter_S100000x48_S1605632x1_S1605632x48_1_0_0_1 : ScatterDims S100000x48 S1605632x1 S1605632x48 where
  updateWindowDims := [1]
  insertedWindowDims := [0]
  scatterDimsToOperandDims := [0]
  indexVectorDim := 1
  wf := scatter_S100000x48_S1605632x1_S1605632x48_1_0_0_1_wf

abbrev win0_0 : Pipeline.Window sig grid0 :=
  Pipeline.Window.ofSpec (Memref.whole main_v8) S5000x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x48.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S5000x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v10) S8192x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S8192x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v9) S5000x48.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x48.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v15) S5000x48.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v16) S8192x48.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v17) S8192x48.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v15) S5000x48.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v20) S5000x48.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v21) S5000x48.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x48 : Shape := ⟨2, ![100000, 48]⟩
abbrev S1600000 : Shape := ⟨1, ![1600000]⟩
abbrev S2x1600000 : Shape := ⟨2, ![2, 1600000]⟩
abbrev S_ : Shape := ⟨0, ![]⟩
abbrev S1x1600000 : Shape := ⟨2, ![1, 1600000]⟩
abbrev S1600000x1 : Shape := ⟨2, ![1600000, 1]⟩
abbrev S1600000x48 : Shape := ⟨2, ![1600000, 48]⟩

abbrev nBuf : Space → Nat
  | .hbm => 54
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S1600000, .f32⟩
  | .hbm, ⟨2, _⟩ => ⟨S2x1600000, .i32⟩
  | .hbm, ⟨3, _⟩ => ⟨S_, .f32⟩
  | .hbm, ⟨4, _⟩ => ⟨S100000x48, .f32⟩
  | .hbm, ⟨5, _⟩ => ⟨S100000x48, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x48, .f32⟩
  | .hbm, ⟨19, _⟩ => ⟨S1600000x1, .f32⟩
  | .hbm, ⟨20, _⟩ => ⟨S1600000x48, .f32⟩
  | .hbm, ⟨21, _⟩ => ⟨S1600000x48, .f32⟩
  | .hbm, ⟨22, _⟩ => ⟨S_, .f32⟩
  | .hbm, ⟨23, _⟩ => ⟨S100000x48, .f32⟩
  | .hbm, ⟨24, _⟩ => ⟨S1600000x1, .i32⟩
  | .hbm, ⟨25, _⟩ => ⟨S100000x48, .f32⟩
  | .hbm, ⟨26, _⟩ => ⟨S_, .f32⟩
  | .hbm, ⟨27, _⟩ => ⟨S100000x48, .f32⟩
  | .hbm, ⟨28, _⟩ => ⟨S100000x48, .f32⟩
  | .hbm, ⟨29, _⟩ => ⟨S100000x48, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x48, .f32⟩
  | .hbm, ⟨43, _⟩ => ⟨S1600000x1, .f32⟩
  | .hbm, ⟨44, _⟩ => ⟨S1600000x48, .f32⟩
  | .hbm, ⟨45, _⟩ => ⟨S1600000x48, .f32⟩
  | .hbm, ⟨46, _⟩ => ⟨S_, .f32⟩
  | .hbm, ⟨47, _⟩ => ⟨S100000x48, .f32⟩
  | .hbm, ⟨48, _⟩ => ⟨S1600000x1, .i32⟩
  | .hbm, ⟨49, _⟩ => ⟨S100000x48, .f32⟩
  | .hbm, ⟨50, _⟩ => ⟨S_, .f32⟩
  | .hbm, ⟨51, _⟩ => ⟨S100000x48, .f32⟩
  | .hbm, ⟨52, _⟩ => ⟨S100000x48, .f32⟩
  | .hbm, ⟨53, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩

abbrev nD : Nat := 1
abbrev τ : Topo := Topo.v7x

variable {F : FTy → Type} [FloatOps F]

class Facts₀ : Prop where
  bcast_S_S100000x48 : S_.BroadcastsInDim S100000x48 (![] : Fin 0 → Fin S100000x48.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1

variable [Facts₀]

def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf

class Facts : Prop extends Facts₀ where

variable [Facts]
-- ==== Proof.Spread.lean ====
/-
  The mathematics both programs compute, on the extended reals.

  A graph on 100000 nodes has 1600000 weighted edges; edge `e` runs from node `src e` to node `dst e` with weight
  `w e`, and every node carries 48 features. One PROPAGATION step sends each node's features along its outgoing edges,
  scaled by the edge's weight, and sums what arrives at each node:

      spread x [n, c] = ∑ over the edges e with dst e = n of  x [row (src e), c] · w e.

  Node numbers are signed 32-bit words. A source number is first WRAPPED (a negative number counts from the end:
  `i ↦ i + 100000`) and then clamped into `[0, 99999]`, which is what indexing an array with it does; a destination
  number is taken as it is, and an edge whose destination is no node's number delivers nothing. The result averages the
  features with one and two steps of propagation, each weighted by the same constant `third`:

      averaged f = (f · third + spread f · third) + spread (spread f) · third.
-/
import Idealize.ShloMosaic.Lib.ValueIdx

noncomputable section

open scoped BigOperators

namespace Cert.Spread

open Idealize.ShloMosaic Idealize.ShloMosaic.ValueIdx

/-- The node features: 100000 rows of 48. -/
abbrev SNodes : Shape := ⟨2, ![100000, 48]⟩
abbrev Feat : Type := SNodes.Idx → EReal

/-- The weight each term of the average carries: the single-precision word nearest one third, read exactly. -/
def third : EReal := Ideal.ofBits .f32 0x3EAAAAAB#32

/-- A signed row number wrapped: a negative number counts from the end of the 100000 rows. -/
def wrapRow (i : BitVec 32) : BitVec 32 := Scalar.select (IntOp.cmpi .slt i 0#32) (i + 100000#32) i

/-- The row a signed number names once wrapped and clamped into `[0, 99999]`. -/
def rowOf (i : BitVec 32) : Fin 100000 := ⟨min (wrapRow i).toInt.toNat 99999, by omega⟩

/-- A source number is IN RANGE when it names a row, from the front or from the end. -/
def InRange (i : BitVec 32) : Prop := -100000 ≤ i.toInt ∧ i.toInt < 100000

/-- One propagation step. -/
def spread (src dst : Fin 1600000 → BitVec 32) (w : Fin 1600000 → EReal) (x : Feat) : Feat :=
  fun i => ∑ e : Fin 1600000,
    if (dst e).toInt = ((i 0).val : Int) then x (ix2 (rowOf (src e)) ⟨(i 1).val, idx2_lt1 i⟩) * w e else 0

theorem spread_ix2 (src dst : Fin 1600000 → BitVec 32) (w : Fin 1600000 → EReal) (x : Feat) (n : Fin 100000) (c : Fin 48) :
    spread src dst w x (ix2 n c)
      = ∑ e : Fin 1600000, if (dst e).toInt = (n.val : Int) then x (ix2 (rowOf (src e)) c) * w e else 0 := rfl

/-- The features averaged with one and two steps of propagation. -/
def averaged (src dst : Fin 1600000 → BitVec 32) (w : Fin 1600000 → EReal) (f : Feat) : Feat :=
  fun i => (f i * third + spread src dst w f i * third) + spread src dst w (spread src dst w f) i * third

/-- Row 0 of the 2 × 1600000 table of node numbers: the sources. -/
def srcOf (a : IVec ⟨2, ![2, 1600000]⟩ 32) : Fin 1600000 → BitVec 32 := fun e => a (ix2 0 e)
/-- Row 1: the destinations. -/
def dstOf (a : IVec ⟨2, ![2, 1600000]⟩ 32) : Fin 1600000 → BitVec 32 := fun e => a (ix2 1 e)
/-- The edge weights as a function of the edge. -/
def wOf (v : (⟨1, ![1600000]⟩ : Shape).Idx → EReal) : Fin 1600000 → EReal := fun e => v (ix1 e)

/-- An in-range number wraps to a row number: nothing is left for the clamp to do. -/
theorem wrapRow_inRange {i : BitVec 32} (h : InRange i) : 0 ≤ (wrapRow i).toInt ∧ (wrapRow i).toInt ≤ 99999 := by
  obtain ⟨hlo, hhi⟩ := h
  have hz : (0#32).toInt = 0 := BitVec.toInt_zero
  unfold wrapRow
  by_cases hneg : i.slt 0#32 = true
  · -- A negative number: the sign test holds, and adding 100000 cannot wrap, since the sum lies in [0, 99999].
    have hc : IntOp.cmpi .slt i 0#32 = 1#1 := by
      show BitVec.ofBool (i.slt 0#32) = 1#1
      rw [hneg]; rfl
    have hi0 : i.toInt < 0 := by
      have := BitVec.slt_iff_toInt_lt.mp hneg
      rwa [hz] at this
    have hk : (100000#32).toInt = 100000 := by decide
    have hsum : (i + 100000#32).toInt = i.toInt + 100000 := by
      rw [BitVec.toInt_add, hk]
      exact Int.bmod_eq_of_le (by omega) (by omega)
    rw [hc, select_one, hsum]
    omega
  · -- A non-negative number is kept, and is below 100000 by hypothesis.
    have hc : IntOp.cmpi .slt i 0#32 = 0#1 := by
      show BitVec.ofBool (i.slt 0#32) = 0#1
      rw [Bool.not_eq_true] at hneg
      rw [hneg]; rfl
    have hi0 : ¬ i.toInt < 0 := by
      intro hlt
      apply hneg
      apply BitVec.slt_iff_toInt_lt.mpr
      rwa [hz]
    rw [hc, select_zero]
    omega

end Cert.Spread

end
-- ==== Proof.LibRowTake.lean ====
/-
  Rows of a matrix taken and put back through a column of signed row numbers, read at an entry.

  `x[idx]` of a matrix `x : [N, C]` at a column `idx : [R, 1]` of row numbers is the gather whose result row `e` is
  the row of `x` that `idx[e, 0]` names, the number read as a signed integer and CLAMPED into `[0, N − 1]`. The
  accumulating scatter of update rows `u : [R, C]` into `x` through such a column adds to entry `(n, c)` every
  `u[e, c]` whose row number `idx[e, 0]`, read signed and NOT clamped, is exactly `n`; a row number outside
  `[0, N)` names no row, and its update row is dropped. On the extended reals that accumulation is a finite sum, so
  it does not depend on the order in which the update rows arrive.
-/
import Idealize.ShloMosaic.Lib.ValueIdx

noncomputable section

open scoped BigOperators

namespace Idealize.ShloMosaic.RowTake

open Idealize.ShloMosaic Idealize.ShloMosaic.ValueIdx

/-! ## The gather of rows -/

section Gather
variable {α : Type}

/-- The dimension numbers of a gather of whole rows: operand `[N, C]`, start indices `[R, 1]`, result `[R, C]`; the
    row axis collapsed and named by the start index, the column axis an offset axis, slices `1 × C`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result entry `(e, c)` starts, on the row axis, at the row number `idx[e, 0]` read signed and clamped. -/
theorem rowGather_start_row {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 0 = min (idx (ix2 e 0)).toInt.toNat (N - 1) := by
  unfold GatherDims.start
  rw [dif_pos (show (0 : Fin 2) ∈ ([0] : List (Fin 2)) from List.mem_singleton.mpr rfl)]
  have hsi : (rowGatherDims N R C wf).siIdx (ix2 e c) ⟨List.idxOf (0 : Fin 2) (rowGatherDims N R C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- … and, on the column axis, at `0`: the start index names no column. -/
theorem rowGather_start_col {N R C w : Nat}
    (wf : GatherDims.WF ⟨2, ![N, C]⟩ ⟨2, ![R, 1]⟩ ⟨2, ![R, C]⟩ [1] [0] [] [0] [] 1 ![1, C])
    (idx : IVec ⟨2, ![R, 1]⟩ w) (e : Fin R) (c : Fin C) :
    (rowGatherDims N R C wf).start (ix2 e c) idx 1 = 0 := by
  unfold GatherDims.start
  rw [dif_neg (show (1 : Fin 2) ∉ ([0] : List (Fin 2)) from by decide)]

/-- Its offset coordinate is `0` on the collapsed row axis … -/
theorem rowGather_off_row {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 0 = 0 :=
  GatherDims.offCoord_eq_zero _ _ _ (fun h => ((GatherDims.mem_sKept _ _).mp h).1 (List.mem_singleton.mpr rfl))

/-- … and its own column on the column axis. -/
theorem rowGather_off_col {N R C : Nat}
    (wf : GatherDims.WF ⟨2, ![N, C]⟩ ⟨2, ![R, 1]⟩ ⟨2, ![R, C]⟩ [1] [0] [] [0] [] 1 ![1, C]) (e : Fin R) (c : Fin C) :
    (rowGatherDims N R C wf).offCoord (ix2 e c) 1 = c.val := by
  unfold GatherDims.offCoord
  rw [dif_pos ((GatherDims.mem_sKept _ _).mpr
    ⟨show (1 : Fin 2) ∉ ([0] : List (Fin 2)) from by decide, List.not_mem_nil⟩)]
  rfl

/-- The gathered entry `(e, c)` is the operand's entry in column `c` of the row `idx[e, 0]` names, that number read
    signed and clamped into `[0, N − 1]`. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) :
    Host.gather (rowGatherDims N R C wf) x idx (ix2 e c)
      = x (ix2 ⟨min (idx (ix2 e 0)).toInt.toNat (N - 1), by omega⟩ c) := by
  unfold Host.gather
  congr 1
  funext a
  refine Fin.ext ?_
  show (rowGatherDims N R C wf).start (ix2 e c) idx a + (rowGatherDims N R C wf).batchCoord (ix2 e c) a
    + (rowGatherDims N R C wf).offCoord (ix2 e c) a = _
  rw [GatherDims.batchCoord_eq_zero _ _ _ List.not_mem_nil, Nat.add_zero]
  match a with
  | ⟨0, _⟩ =>
    exact (show (rowGatherDims N R C wf).start (ix2 e c) idx 0 + (rowGatherDims N R C wf).offCoord (ix2 e c) 0
        = min (idx (ix2 e 0)).toInt.toNat (N - 1) by rw [rowGather_start_row, rowGather_off_row, Nat.add_zero])
  | ⟨1, _⟩ =>
    exact (show (rowGatherDims N R C wf).start (ix2 e c) idx 1 + (rowGatherDims N R C wf).offCoord (ix2 e c) 1
        = c.val by rw [rowGather_start_col, rowGather_off_col, Nat.zero_add])

end Gather

/-! ## The accumulating scatter of rows -/

section Scatter

/-- The dimension numbers of a scatter of whole rows: operand `[N, C]`, scatter indices `[R, 1]`, updates `[R, C]`;
    the row axis inserted and named by the scatter index, the column axis the update's window axis. -/
abbrev rowScatterDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat} (wf : ScatterDims.WF ⟨2, ![N, C]⟩ ⟨2, ![R, 1]⟩ ⟨2, ![R, C]⟩ [1] [0] [0] 1)

/-- Update entry `(e, c)` starts, on the row axis, at the signed row number `idx[e, 0]`. -/
theorem rowScatter_start_row (idx : IVec ⟨2, ![R, 1]⟩ w) (e : Fin R) (c : Fin C) :
    (rowScatterDims N R C wf).start (ix2 e c) idx 0 = (idx (ix2 e 0)).toInt := by
  unfold ScatterDims.start
  rw [dif_pos (show (0 : Fin 2) ∈ ([0] : List (Fin 2)) from List.mem_singleton.mpr rfl)]
  have hsi : (rowScatterDims N R C wf).siIdx (ix2 e c) ⟨List.idxOf (0 : Fin 2) (rowScatterDims N R C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, on the column axis, at `0`. -/
theorem rowScatter_start_col (idx : IVec ⟨2, ![R, 1]⟩ w) (e : Fin R) (c : Fin C) :
    (rowScatterDims N R C wf).start (ix2 e c) idx 1 = 0 := by
  unfold ScatterDims.start
  rw [dif_neg (show (1 : Fin 2) ∉ ([0] : List (Fin 2)) from by decide)]

/-- The operand's axes that are not inserted: the column axis alone. -/
theorem rowScatter_mem_sKept (a : Fin 2) : a ∈ (rowScatterDims N R C wf).sKept ↔ a ∉ ([0] : List (Fin 2)) := by
  simp [ScatterDims.sKept, Shape.kept, List.mem_filter, List.mem_finRange]

/-- Its window coordinate is `0` on the row axis … -/
theorem rowScatter_window_row (e : Fin R) (c : Fin C) : (rowScatterDims N R C wf).window (ix2 e c) 0 = 0 := by
  unfold ScatterDims.window
  rw [dif_neg (fun h => ((rowScatter_mem_sKept wf 0).mp h) (List.mem_singleton.mpr rfl))]

/-- … and its own column on the column axis. -/
theorem rowScatter_window_col (e : Fin R) (c : Fin C) : (rowScatterDims N R C wf).window (ix2 e c) 1 = c.val := by
  unfold ScatterDims.window
  rw [dif_pos ((rowScatter_mem_sKept wf 1).mpr (by decide))]
  rfl

/-- WHERE AN UPDATE ENTRY LANDS: entry `(e, c)` lands on `(n, c')` exactly when its row number, read signed, is `n`
    and `c = c'`. -/
theorem rowScatter_lands (idx : IVec ⟨2, ![R, 1]⟩ w) (e : Fin R) (c : Fin C) (n : Fin N) (c' : Fin C) :
    (rowScatterDims N R C wf).resultIdx? (ix2 e c) idx = some (ix2 n c')
      ↔ (idx (ix2 e 0)).toInt = (n.val : Int) ∧ c = c' := by
  -- start plus window coordinate, axis by axis: the signed row number on the row axis, the column on the column axis
  have h0 : (rowScatterDims N R C wf).start (ix2 e c) idx 0 + ((rowScatterDims N R C wf).window (ix2 e c) 0 : Nat)
      = (idx (ix2 e 0)).toInt := by
    rw [rowScatter_start_row, rowScatter_window_row, Nat.cast_zero, Int.add_zero]
  have h1 : (rowScatterDims N R C wf).start (ix2 e c) idx 1 + ((rowScatterDims N R C wf).window (ix2 e c) 1 : Nat)
      = (c.val : Int) := by
    rw [rowScatter_start_col, rowScatter_window_col, Int.zero_add]
  have hN : (⟨2, ![N, C]⟩ : Shape).size 0 = N := rfl
  have hC : (⟨2, ![N, C]⟩ : Shape).size 1 = C := rfl
  unfold ScatterDims.resultIdx?
  constructor
  · intro h
    by_cases hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat)
    · rw [dif_pos hall] at h
      have heq := Option.some.inj h
      -- the landed index read on each axis
      have e0 : ((rowScatterDims N R C wf).start (ix2 e c) idx 0
          + ((rowScatterDims N R C wf).window (ix2 e c) 0 : Nat)).toNat = n.val :=
        congrArg (fun f => (f 0).val) heq
      have e1 : ((rowScatterDims N R C wf).start (ix2 e c) idx 1
          + ((rowScatterDims N R C wf).window (ix2 e c) 1 : Nat)).toNat = c'.val :=
        congrArg (fun f => (f 1).val) heq
      have p0 := (hall 0).1
      rw [h0] at e0 p0
      rw [h1] at e1
      refine ⟨by omega, Fin.ext (by omega)⟩
    · rw [dif_neg hall] at h
      exact absurd h (by simp)
  · rintro ⟨hi, rfl⟩
    have hall : ∀ a, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      rw [Fin.forall_fin_two, h0, h1, hN, hC, hi]
      have := n.isLt
      have := c.isLt
      omega
    rw [dif_pos hall]
    congr 1
    funext a
    refine Fin.ext ?_
    match a with
    | ⟨0, _⟩ =>
      exact (show ((rowScatterDims N R C wf).start (ix2 e c) idx 0
          + ((rowScatterDims N R C wf).window (ix2 e c) 0 : Nat)).toNat = n.val by rw [h0, hi]; exact Int.toNat_natCast _)
    | ⟨1, _⟩ =>
      exact (show ((rowScatterDims N R C wf).start (ix2 e c) idx 1
          + ((rowScatterDims N R C wf).window (ix2 e c) 1 : Nat)).toNat = c.val by rw [h1]; exact Int.toNat_natCast _)

/-- THE SCATTER READ AT `(n, c)`, on the extended reals: the operand's entry plus the sum, over the update rows whose
    row number is `n`, of their entries in column `c`. -/
theorem rowScatterAdd_apply (x : (⟨2, ![N, C]⟩ : Shape).Idx → EReal) (idx : IVec ⟨2, ![R, 1]⟩ w)
    (upd : (⟨2, ![R, C]⟩ : Shape).Idx → EReal) (n : Fin N) (c : Fin C) :
    Ideal.hostScatterAdd (rowScatterDims N R C wf) x idx upd (ix2 n c)
      = x (ix2 n c) + ∑ e : Fin R, if (idx (ix2 e 0)).toInt = (n.val : Int) then upd (ix2 e c) else 0 := by
  unfold Ideal.hostScatterAdd
  congr 1
  -- the filtered sum as a sum of conditionals, over the update's two coordinates
  rw [Finset.sum_filter, sum_idx2]
  refine Finset.sum_congr rfl (fun e _ => ?_)
  -- in update row `e` only column `c` can land on `(n, c)`
  rw [Finset.sum_eq_single c]
  · by_cases hi : (idx (ix2 e 0)).toInt = (n.val : Int)
    · rw [if_pos ((rowScatter_lands wf idx e c n c).mpr ⟨hi, rfl⟩), if_pos hi]
    · rw [if_neg (fun h => hi ((rowScatter_lands wf idx e c n c).mp h).1), if_neg hi]
  · intro b _ hb
    exact if_neg (fun h => hb ((rowScatter_lands wf idx e b n c).mp h).2)
  · intro h
    exact absurd (Finset.mem_univ c) h

end Scatter

end Idealize.ShloMosaic.RowTake

end
-- ==== Proof.KTerms.lean ====
/-
  One propagation step as the kernel's program computes it, in pure terms on the extended reals.

  The kernel pads its 1600000 edges to 1605632 = 196 · 8192 with edges of source 0, destination 0 and weight 0. It
  takes the source rows with a RANGE MASK: a wrapped source number outside `[0, 99999]` yields a row of a junk value
  instead of a clamped row. It multiplies each taken row by its edge's weight, block by block, and scatters the products
  onto the destination rows, adding. Under the range condition on the sources every mask bit is set, so the take is the
  clamped take; a padded edge contributes `x[0, c] · 0 = 0`; and the accumulation over the 1605632 padded edges is the sum
  over the 1600000 real ones, which is `spread`.
-/
import proofs.«430481_j77996606095425_1_alg».proof.Proof.Gen.KernelIdeal
import proofs.«430481_j77996606095425_1_alg».proof.Proof.Spread
import proofs.«430481_j77996606095425_1_alg».proof.Proof.LibRowTake

noncomputable section

open scoped BigOperators

namespace Cert.KernelIdeal.Terms

open Cert.KernelIdeal Cert.KernelIdeal.Gen Cert.Spread Idealize.ShloMosaic Idealize.ShloMosaic.ValueIdx

/-- A vector of 1600000 node numbers padded with zeros to 1605632. -/
def padI (s : Fin 1600000 → BitVec 32) : IVec S1605632 32 :=
  fun j => if h : (j 0).val < 1600000 then s ⟨(j 0).val, h⟩ else 0#32

/-- The 1600000 edge weights padded with zeros to 1605632, as a column. -/
def padW (w : Fin 1600000 → EReal) : FVec Ideal S1605632x1 .f32 :=
  fun j => if h : (j 0).val < 1600000 then w ⟨(j 0).val, h⟩ else 0

/-- The masked take of the rows of `x` the padded source numbers `sp` name: the host operations of the program's take, in
    order. -/
def takeT (x : FVec Ideal S100000x48 .f32) (sp : IVec S1605632 32) : FVec Ideal S1605632x48 .f32 :=
  let v0 : IVec S1605632 32 := broadcastInDim S1605632 ![] bcast_S_S1605632 (constantI S_ 32 0#32)
  let v1 : IVec S1605632 1 := cmpi .slt sp v0
  let v2 : IVec S1605632 32 := broadcastInDim S1605632 ![] bcast_S_S1605632 (constantI S_ 32 100000#32)
  let v3 : IVec S1605632 32 := addi sp v2
  let v4 : IVec S1605632 32 := select v1 v3 sp
  let v5 : IVec S1605632x1 32 := broadcastInDim S1605632x1 ![0] bcast_S1605632_S1605632x1_0 v4
  let v6 : IVec S1605632x1 32 := broadcastInDim S1605632x1 ![] bcast_S_S1605632x1 (constantI S_ 32 0#32)
  let v7 : IVec S1605632x1 1 := cmpi .sge v5 v6
  let v8 : IVec S1x1 32 := broadcastInDim S1x1 ![1] bcast_S1_S1x1_1 (constantI S1 32 99999#32)
  let v9 : IVec S1605632x1 32 := broadcastInDim S1605632x1 ![0, 1] bcast_S1x1_S1605632x1_0_1 v8
  let v10 : IVec S1605632x1 1 := cmpi .sle v5 v9
  let v11 : IVec S1605632x1 1 := andi v7 v10
  let v12 : IVec S1605632 1 := Host.reduce IntOp.andi v11 (constantI S_ 1 1#1) reducesTo_S1605632x1_S1605632_d1 h_S_
  let v13 : FVec Ideal S1605632x48 .f32 := Host.gather gather_S100000x48_S1605632x1_S1605632x48_1_0_n_n_0_1_148 x v5
  let v14 : IVec S1605632x48 1 := broadcastInDim S1605632x48 ![0] bcast_S1605632_S1605632x48_0 v12
  let v15 : FVec Ideal S1605632x48 .f32 := broadcastInDim S1605632x48 ![] bcast_S_S1605632x48 (constant (F := Ideal) S_ .f32 0x7FC00000#32)
  select v14 v13 v15

/-- Each taken row times its edge's weight. -/
def mulT (g : FVec Ideal S1605632x48 .f32) (wc : FVec Ideal S1605632x1 .f32) : FVec Ideal S1605632x48 .f32 :=
  fun j => g j * wc (ix2 ⟨(j 0).val, idx2_lt0 j⟩ 0)

/-- The weighted rows scattered onto the rows the padded destination numbers `dp` name, adding, from zeros. -/
def scatT (dp : IVec S1605632 32) (u : FVec Ideal S1605632x48 .f32) : FVec Ideal S100000x48 .f32 :=
  Host.scatterAdd (F := Ideal) scatter_S100000x48_S1605632x1_S1605632x48_1_0_0_1
    (broadcastInDim S100000x48 ![] bcast_S_S100000x48 (constant (F := Ideal) S_ .f32 0x00000000#32))
    (broadcastInDim S1605632x1 ![0] bcast_S1605632_S1605632x1_0 dp) u

/-- One term of the running average: `y + x · third`. -/
def fmaT (y x : FVec Ideal S100000x48 .f32) : FVec Ideal S100000x48 .f32 := fun i => y i + x i * third

end Cert.KernelIdeal.Terms

end
-- ==== Proof.KRegionsFma.lean ====
/-
  The three accumulate regions as whole-array functions.

  Each runs over 20 blocks of 5000 rows; block `t` of the output is `y + x · third` of block `t` of the two inputs, an
  entry depending only on the same entry of each input. The 20 blocks tile the 100000 rows, so after the region the
  output array holds `y + x · third` entry by entry.
-/
import proofs.«430481_j77996606095425_1_alg».proof.Proof.Gen.KernelIdeal.Frame
import proofs.«430481_j77996606095425_1_alg».proof.Proof.KTerms
import Idealize.ShloMosaic.Lib.Pipeline.Value
import Idealize.ShloMosaic.Lib.ValueLayout

set_option maxRecDepth 16384

noncomputable section

namespace Cert.KernelIdeal.Regions

open Cert.KernelIdeal Cert.KernelIdeal.Gen Cert.KernelIdeal.Terms Cert.Spread
open Idealize.ShloMosaic Idealize.ShloMosaic.TcCoe Idealize.ShloMosaic.ValueIdx Idealize.SL.Sem
open Idealize.ShloMosaic.Pipeline (Dat Cfg Window)

-- The TensorCore's buffer contents when a region is entered: every region's value is stated at this parameter.
variable (V : (c : Dev nD) → (b : Ref sig .tc) → Buf (Elt Ideal) ((c : Thread nD τ).loc b))

namespace Fma

/-- The body's one store starts at row 0, column 0 of its block. -/
theorem zero_offsets : (![0, 0] : Fin 2 → Nat) = fun _ => 0 := funext fun a => by fin_cases a <;> rfl

/-! ## Region 0 -/

/-- The accumulator array of region 0 as the region finds it, at its literal type. -/
abbrev yArr0 (c : Dev nD) : FVec Ideal S100000x48 .f32 := V c main_v8
/-- The array region 0 adds a third of, as the region finds it, at its literal type. -/
abbrev xArr0 (c : Dev nD) : FVec Ideal S100000x48 .f32 := V c main_arg0

/-- The body's arithmetic at one entry of a block: the first operand plus the second times `third` (the reshape to the
    same shape is the identity, the broadcast constant is the word of `third`). -/
theorem pay0_apply (y x : FVec Ideal S5000x48 .f32) (j : S5000x48.Idx) :
    k0_pay1 (F := Ideal) y x j = y j + x j * third := by
  unfold k0_pay1
  show addf (shapeCast S5000x48 y shapeCasts_S5000x48_S5000x48)
      (mulf x (broadcast S5000x48 (Scalar.ofBits .f32 0x3EAAAAAB#32))) j = _
  rw [shapeCast_self]
  rfl

/-- The three index maps at every grid point: block row `t`, block column 0. -/
theorem index0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Every one of the 20 row blocks is some grid point's output block. -/
theorem index0_onto : ∀ q : Fin 20, ∃ t : Fin cfg0.N, win0_2.index t = ![q.val, 0] :=
  (by decide +kernel : ∀ q : Fin 20, ∃ t : Fin grid0.N, win0_2.index t = ![q.val, 0])

/-- What grid point `t` writes back is block `t` of `y + x · third` of the two input arrays: the three windows sit on
    the same rows `5000 t … 5000 t + 4999` and all 48 columns. -/
theorem flushed0_eq (c : Dev nD) (t : Fin cfg0.N) :
    (dat0 (F := Ideal) V c).flushed 2 t
      = ((cfg0.win 2).blk t).view.read (Elt Ideal) (fmaT (yArr0 V c) (xArr0 V c)) := by
  show (cfg0.win 2).cut (grid0.coords t) ((dat0 V c).after 2 t) = _
  rw [after0_2]
  unfold out0_2
  rw [View.canon_unit_zero zero_offsets]
  simp only [View.ld_unit_zero (S := S5000x48) zero_offsets]
  obtain ⟨e00, e01, e10, e11, e20, e21⟩ := index0 t
  funext j
  show k0_pay1 (iblk0 V c 0 t) (iblk0 V c 1 t) j = fmaT (yArr0 V c) (xArr0 V c) (((cfg0.win 2).blk t).view.emb j)
  refine (pay0_apply _ _ j).trans ?_
  show yArr0 V c (((cfg0.win 0).blk t).view.emb j) + xArr0 V c (((cfg0.win 1).blk t).view.emb j) * third
    = yArr0 V c (((cfg0.win 2).blk t).view.emb j) + xArr0 V c (((cfg0.win 2).blk t).view.emb j) * third
  have hj0 : (j 0).val < 5000 := (j 0).isLt
  have hj1 : (j 1).val < 48 := (j 1).isLt
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 48 + 1 * (j 1).val = win0_2.index t (1 : Fin 2) * 48 + 1 * (j 1).val; omega
  have h1 : ((cfg0.win 1).blk t).view.emb j = ((cfg0.win 2).blk t).view.emb j := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 48 + 1 * (j 1).val = win0_2.index t (1 : Fin 2) * 48 + 1 * (j 1).val; omega
  rw [h0, h1]

/-- An entry of the output array is in grid point `t`'s block iff each coordinate is in the block's range. -/
theorem mem_blk0 (t : Fin cfg0.N) (i : S100000x48.Idx) :
    i ∈ ((cfg0.win 2).blk t).view.set ↔ ∀ a : Fin 2, win0_2.index t a * S5000x48.size a ≤ (i a).val
      ∧ (i a).val < win0_2.index t a * S5000x48.size a + S5000x48.size a := by
  show i ∈ ((View.whole main_v9).slice (win0_2.rect t)).set ↔ _
  rw [View.set_slice_whole, Rect.mem_set_unit]
  exact Iff.rfl

/-- The blocks tile the array: row `r` lies in the block of the point whose block row is `r / 5000`. -/
theorem cover0 (i : S100000x48.Idx) :
    ∃ t : Fin cfg0.N, (cfg0.win 2).flush t = true ∧ i ∈ ((cfg0.win 2).blk t).view.set := by
  have hi0 : (i 0).val < 100000 := (i 0).isLt
  have hi1 : (i 1).val < 48 := (i 1).isLt
  obtain ⟨t, ht⟩ := index0_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 48 ≤ (i 1).val ∧ (i 1).val < win0_2.index t (1 : Fin 2) * 48 + 48; omega

/-! ## Region 2

The same argument on region 2's windows; here the body reshapes BOTH operands to their own shape before the arithmetic. -/

/-- The accumulator array of region 2 as the region finds it, at its literal type. -/
abbrev yArr2 (c : Dev nD) : FVec Ideal S100000x48 .f32 := V c main_v9
/-- The array region 2 adds a third of, as the region finds it, at its literal type. -/
abbrev xArr2 (c : Dev nD) : FVec Ideal S100000x48 .f32 := V c main_v14

/-- The body's arithmetic at one entry of a block: the first operand plus the second times `third` (both reshapes to the
    same shape are the identity, the broadcast constant is the word of `third`). -/
theorem pay2_apply (y x : FVec Ideal S5000x48 .f32) (j : S5000x48.Idx) :
    k2_pay1 (F := Ideal) y x j = y j + x j * third := by
  unfold k2_pay1
  show addf (shapeCast S5000x48 y shapeCasts_S5000x48_S5000x48)
      (mulf (shapeCast S5000x48 x shapeCasts_S5000x48_S5000x48) (broadcast S5000x48 (Scalar.ofBits .f32 0x3EAAAAAB#32))) j = _
  rw [shapeCast_self, shapeCast_self]
  rfl

/-- The three index maps at every grid point: block row `t`, block column 0. -/
theorem index2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- Every one of the 20 row blocks is some grid point's output block. -/
theorem index2_onto : ∀ q : Fin 20, ∃ t : Fin cfg2.N, win2_2.index t = ![q.val, 0] :=
  (by decide +kernel : ∀ q : Fin 20, ∃ t : Fin grid2.N, win2_2.index t = ![q.val, 0])

/-- What grid point `t` writes back is block `t` of `y + x · third` of the two input arrays: the three windows sit on
    the same rows `5000 t … 5000 t + 4999` and all 48 columns. -/
theorem flushed2_eq (c : Dev nD) (t : Fin cfg2.N) :
    (dat2 (F := Ideal) V c).flushed 2 t
      = ((cfg2.win 2).blk t).view.read (Elt Ideal) (fmaT (yArr2 V c) (xArr2 V c)) := by
  show (cfg2.win 2).cut (grid2.coords t) ((dat2 V c).after 2 t) = _
  rw [after2_2]
  unfold out2_2
  rw [View.canon_unit_zero zero_offsets]
  simp only [View.ld_unit_zero (S := S5000x48) zero_offsets]
  obtain ⟨e00, e01, e10, e11, e20, e21⟩ := index2 t
  funext j
  show k2_pay1 (iblk2 V c 0 t) (iblk2 V c 1 t) j = fmaT (yArr2 V c) (xArr2 V c) (((cfg2.win 2).blk t).view.emb j)
  refine (pay2_apply _ _ j).trans ?_
  show yArr2 V c (((cfg2.win 0).blk t).view.emb j) + xArr2 V c (((cfg2.win 1).blk t).view.emb j) * third
    = yArr2 V c (((cfg2.win 2).blk t).view.emb j) + xArr2 V c (((cfg2.win 2).blk t).view.emb j) * third
  have hj0 : (j 0).val < 5000 := (j 0).isLt
  have hj1 : (j 1).val < 48 := (j 1).isLt
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 48 + 1 * (j 1).val = win2_2.index t (1 : Fin 2) * 48 + 1 * (j 1).val; omega
  have h1 : ((cfg2.win 1).blk t).view.emb j = ((cfg2.win 2).blk t).view.emb j := by
    funext a; apply Fin.ext
    match a with
    | ⟨0, _⟩ => show win2_1.index t (0 : Fin 2) * 5000 + 1 * (j 0).val = win2_2.index t (0 : Fin 2) * 5000 + 1 * (j 0).val; omega
    | ⟨1, _⟩ => show win2_1.index t (1 : Fin 2) * 48 + 1 * (j 1).val = win2_2.index t (1 : Fin 2) * 48 + 1 * (j 1).val; omega
  rw [h0, h1]

/-- An entry of the output array is in grid point `t`'s block iff each coordinate is in the block's range. -/
theorem mem_blk2 (t : Fin cfg2.N) (i : S100000x48.Idx) :
    i ∈ ((cfg2.win 2).blk t).view.set ↔ ∀ a : Fin 2, win2_2.index t a * S5000x48.size a ≤ (i a).val
      ∧ (i a).val < win2_2.index t a * S5000x48.size a + S5000x48.size a := by
  show i ∈ ((View.whole main_v15).slice (win2_2.rect t)).set ↔ _
  rw [View.set_slice_whole, Rect.mem_set_unit]
  exact Iff.rfl

/-- The blocks tile the array: row `r` lies in the block of the point whose block row is `r / 5000`. -/
theorem cover2 (i : S100000x48.Idx) :
    ∃ t : Fin cfg2.N, (cfg2.win 2).flush t = true ∧ i ∈ ((cfg2.win 2).blk t).view.set := by
  have hi0 : (i 0).val < 100000 := (i 0).isLt
  have hi1 : (i 1).val < 48 := (i 1).isLt
  obtain ⟨t, ht⟩ := index2_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 48 ≤ (i 1).val ∧ (i 1).val < win2_2.index t (1 : Fin 2) * 48 + 48; omega

/-! ## Region 4

The same argument once more, on region 4's windows. -/

/-- The accumulator array of region 4 as the region finds it, at its literal type. -/
abbrev yArr4 (c : Dev nD) : FVec Ideal S100000x48 .f32 := V c main_v15
/-- The array region 4 adds a third of, as the region finds it, at its literal type. -/
abbrev xArr4 (c : Dev nD) : FVec Ideal S100000x48 .f32 := V c main_v20

/-- The body's arithmetic at one entry of a block: the first operand plus the second times `third` (both reshapes to the
    same shape are the identity, the broadcast constant is the word of `third`). -/
theorem pay4_apply (y x : FVec Ideal S5000x48 .f32) (j : S5000x48.Idx) :
    k4_pay1 (F := Ideal) y x j = y j + x j * third := by
  unfold k4_pay1
  show addf (shapeCast S5000x48 y shapeCasts_S5000x48_S5000x48)
      (mulf (shapeCast S5000x48 x shapeCasts_S5000x48_S5000x48) (broadcast S5000x48 (Scalar.ofBits .f32 0x3EAAAAAB#32))) j = _
  rw [shapeCast_self, shapeCast_self]
  rfl

/-- The three index maps at every grid point: block row `t`, block column 0. -/
theorem index4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- Every one of the 20 row blocks is some grid point's output block. -/
theorem index4_onto : ∀ q : Fin 20, ∃ t : Fin cfg4.N, win4_2.index t = ![q.val, 0] :=
  (by decide +kernel : ∀ q : Fin 20, ∃ t : Fin grid4.N, win4_2.index t = ![q.val, 0])

/-- What grid point `t` writes back is block `t` of `y + x · third` of the two input arrays: the three windows sit on
    the same rows `5000 t … 5000 t + 4999` and all 48 columns. -/
theorem flushed4_eq (c : Dev nD) (t : Fin cfg4.N) :
    (dat4 (F := Ideal) V c).flushed 2 t
      = ((cfg4.win 2).blk t).view.read (Elt Ideal) (fmaT (yArr4 V c) (xArr4 V c)) := by
  show (cfg4.win 2).cut (grid4.coords t) ((dat4 V c).after 2 t) = _
  rw [after4_2]
  unfold out4_2
  rw [View.canon_unit_zero zero_offsets]
  simp only [View.ld_unit_zero (S := S5000x48) zero_offsets]
  obtain ⟨e00, e01, e10, e11, e20, e21⟩ := index4 t
  funext j
  show k4_pay1 (iblk4 V c 0 t) (iblk4 V c 1 t) j = fmaT (yArr4 V c) (xArr4 V c) (((cfg4.win 2).blk t).view.emb j)
  refine (pay4_apply _ _ j).trans ?_
  show yArr4 V c (((cfg4.win 0).blk t).view.emb j) + xArr4 V c (((cfg4.win 1).blk t).view.emb j) * third
    = yArr4 V c (((cfg4.win 2).blk t).view.emb j) + xArr4 V c (((cfg4.win 2).blk t).view.emb j) * third
  have hj0 : (j 0).val < 5000 := (j 0).isLt
  have hj1 : (j 1).val < 48 := (j 1).isLt
  have h0 : ((cfg4.win 0).blk t).view.emb j = ((cfg4.win 2).blk t).view.emb j := by
    funext a; apply Fin.ext
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 48 + 1 * (j 1).val = win4_2.index t (1 : Fin 2) * 48 + 1 * (j 1).val; omega
  have h1 : ((cfg4.win 1).blk t).view.emb j = ((cfg4.win 2).blk t).view.emb j := by
    funext a; apply Fin.ext
    match a with
    | ⟨0, _⟩ => show win4_1.index t (0 : Fin 2) * 5000 + 1 * (j 0).val = win4_2.index t (0 : Fin 2) * 5000 + 1 * (j 0).val; omega
    | ⟨1, _⟩ => show win4_1.index t (1 : Fin 2) * 48 + 1 * (j 1).val = win4_2.index t (1 : Fin 2) * 48 + 1 * (j 1).val; omega
  rw [h0, h1]

/-- An entry of the output array is in grid point `t`'s block iff each coordinate is in the block's range. -/
theorem mem_blk4 (t : Fin cfg4.N) (i : S100000x48.Idx) :
    i ∈ ((cfg4.win 2).blk t).view.set ↔ ∀ a : Fin 2, win4_2.index t a * S5000x48.size a ≤ (i a).val
      ∧ (i a).val < win4_2.index t a * S5000x48.size a + S5000x48.size a := by
  show i ∈ ((View.whole main_v21).slice (win4_2.rect t)).set ↔ _
  rw [View.set_slice_whole, Rect.mem_set_unit]
  exact Iff.rfl

/-- The blocks tile the array: row `r` lies in the block of the point whose block row is `r / 5000`. -/
theorem cover4 (i : S100000x48.Idx) :
    ∃ t : Fin cfg4.N, (cfg4.win 2).flush t = true ∧ i ∈ ((cfg4.win 2).blk t).view.set := by
  have hi0 : (i 0).val < 100000 := (i 0).isLt
  have hi1 : (i 1).val < 48 := (i 1).isLt
  obtain ⟨t, ht⟩ := index4_onto ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 48 ≤ (i 1).val ∧ (i 1).val < win4_2.index t (1 : Fin 2) * 48 + 48; omega

end Fma

/-- Region 0: the zeros and the features. -/
theorem fma0_arr (c : Dev nD) : (dat0 (F := Ideal) V c).arrAt 2 cfg0.N = fmaT (V c main_v8) (V c main_arg0) :=
  (dat0 (F := Ideal) V c).arrAt_eq_of_cover 2 (fmaT (Fma.yArr0 V c) (Fma.xArr0 V c))
    (fun t _ => Fma.flushed0_eq V c t) Fma.cover0

/-- Region 2: the running average and the first propagation step. -/
theorem fma2_arr (c : Dev nD) : (dat2 (F := Ideal) V c).arrAt 2 cfg2.N = fmaT (V c main_v9) (V c main_v14) :=
  (dat2 (F := Ideal) V c).arrAt_eq_of_cover 2 (fmaT (Fma.yArr2 V c) (Fma.xArr2 V c))
    (fun t _ => Fma.flushed2_eq V c t) Fma.cover2

/-- Region 4: the running average and the second propagation step. -/
theorem fma4_arr (c : Dev nD) : (dat4 (F := Ideal) V c).arrAt 2 cfg4.N = fmaT (V c main_v15) (V c main_v20) :=
  (dat4 (F := Ideal) V c).arrAt_eq_of_cover 2 (fmaT (Fma.yArr4 V c) (Fma.xArr4 V c))
    (fun t _ => Fma.flushed4_eq V c t) Fma.cover4

end Cert.KernelIdeal.Regions

end
-- ==== Proof.KRegionsMul.lean ====
/-
  The two weighting regions as whole-array functions.

  Each runs over 196 blocks of 8192 edges; block `t` of the output is block `t` of the taken rows, each row times its
  edge's weight (the weights a column, broadcast along the 48 features). The 196 blocks tile the 1605632 padded edges,
  so after the region the output array holds every taken row times its weight.
-/
import proofs.«430481_j77996606095425_1_alg».proof.Proof.Gen.KernelIdeal.Frame
import proofs.«430481_j77996606095425_1_alg».proof.Proof.KTerms
import Idealize.ShloMosaic.Lib.Pipeline.Value
import Idealize.ShloMosaic.Lib.ValueLayout

set_option maxRecDepth 16384

noncomputable section

namespace Cert.KernelIdeal.Regions

open Cert.KernelIdeal Cert.KernelIdeal.Gen Cert.KernelIdeal.Terms Cert.Spread
open Idealize.ShloMosaic Idealize.ShloMosaic.TcCoe Idealize.ShloMosaic.ValueIdx Idealize.SL.Sem
open Idealize.ShloMosaic.Pipeline (Dat Cfg Window)

-- The TensorCore's buffer contents when a region is entered: every region's value is stated at this parameter.
variable (V : (c : Dev nD) → (b : Ref sig .tc) → Buf (Elt Ideal) ((c : Thread nD τ).loc b))

/-! # The shared pieces -/

/-- The weight column both regions read, at its literal type. -/
abbrev wcol (c : Dev nD) : FVec Ideal S1605632x1 .f32 := V c main_v7

/-- A rank-2 offset of zeros. -/
theorem zero_offsets : (![0, 0] : Fin 2 → Nat) = fun _ => 0 :=
  funext fun a => by match a with | ⟨0, _⟩ => rfl | ⟨1, _⟩ => rfl

/-! # Region 1 -/

/-- The rows region 1 weights, at their literal type. -/
abbrev rows1 (c : Dev nD) : FVec Ideal S1605632x48 .f32 := V c main_v10

/-- The block's product at an index: the row's entry times its edge's weight, the weight column being broadcast along
    the 48 features (its only entry in that row is at column 0). -/
theorem weighted_block1_apply (w : Vec Ideal S8192x1 .f32) (g : Vec Ideal S8192x48 .f32) (p : Fin 8192) (q : Fin 48) :
    k1_pay1 w g (ix2 p q) = g (ix2 p q) * w (ix2 p 0) := by
  unfold k1_pay1
  rw [mulf_apply, shapeCast_self, shapeCast_self, shapeCast_self]
  exact congrArg (g (ix2 p q) * ·) (broadcastTo_apply w broadcasts_S8192x1_S8192x48 (ix2 p q) (ix2 p 0)
    (fun a => by match a with | ⟨0, _⟩ => rfl | ⟨1, _⟩ => rfl))

/-- A block of products is a block of the whole-array product, once its two input blocks sit where they should: the row
    block's entry at array index `i`, the weight block's entry at `i`'s edge row, column 0. -/
theorem weighted_block1 (g : FVec Ideal S1605632x48 .f32) (wc : FVec Ideal S1605632x1 .f32)
    (x0 : Vec Ideal S8192x48 .f32) (x1 : Vec Ideal S8192x1 .f32) (i : S1605632x48.Idx) (p : Fin 8192) (q : Fin 48)
    (h0 : x0 (ix2 p q) = g i) (h1 : x1 (ix2 p 0) = wc (ix2 ⟨(i 0).val, idx2_lt0 i⟩ 0)) :
    k1_pay1 x1 x0 (ix2 p q) = mulT g wc i := by
  rw [weighted_block1_apply, h0, h1]
  rfl

/-- The three windows' block indices at grid point `t`: block `t` along the edges, block 0 across. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the whole-array product: a block's coordinate in the array is its
    block index times the block's extent plus the coordinate inside the block, and the three windows share the block
    index along the edges. -/
theorem flushed1_eq (c : Dev nD) (t : Fin cfg1.N) :
    (dat1 (F := Ideal) V c).flushed 2 t = ((cfg1.win 2).blk t).view.read (Elt Ideal) (mulT (rows1 V c) (wcol V c)) := by
  show (cfg1.win 2).cut (grid1.coords t) ((dat1 V c).after 2 t) = _
  rw [after1_2]
  unfold out1_2
  rw [View.canon_unit_zero zero_offsets]
  simp only [View.ld_unit_zero (S := S8192x48) zero_offsets, View.ld_unit_zero (S := S8192x1) zero_offsets]
  obtain ⟨e0, e1, e2, e3, e4, e5⟩ := index_facts1 t
  funext j
  obtain ⟨p, q, rfl⟩ : ∃ (p : Fin 8192) (q : Fin 48), j = ix2 p q := ⟨j 0, j 1, eq_ix2 j⟩
  show k1_pay1 (iblk1 V c 1 t) (iblk1 V c 0 t) (ix2 p q) = mulT (rows1 V c) (wcol V c) (((cfg1.win 2).blk t).view.emb (ix2 p q))
  refine weighted_block1 (rows1 V c) (wcol V c) _ _ _ p q ?_ ?_
  · show rows1 V c (((cfg1.win 0).blk t).view.emb (ix2 p q)) = rows1 V c (((cfg1.win 2).blk t).view.emb (ix2 p q))
    refine congrArg (rows1 V c) (funext fun a => Fin.ext ?_)
    match a with
    | ⟨0, _⟩ => show win1_0.index t (0 : Fin 2) * 8192 + 1 * p.val = win1_2.index t (0 : Fin 2) * 8192 + 1 * p.val; omega
    | ⟨1, _⟩ => show win1_0.index t (1 : Fin 2) * 48 + 1 * q.val = win1_2.index t (1 : Fin 2) * 48 + 1 * q.val; omega
  · show wcol V c (((cfg1.win 1).blk t).view.emb (ix2 p 0)) = wcol V c (ix2 ⟨((((cfg1.win 2).blk t).view.emb (ix2 p q)) 0).val, _⟩ 0)
    refine congrArg (wcol V c) (funext fun a => Fin.ext ?_)
    match a with
    | ⟨0, _⟩ => show win1_1.index t (0 : Fin 2) * 8192 + 1 * p.val = win1_2.index t (0 : Fin 2) * 8192 + 1 * p.val; omega
    | ⟨1, _⟩ => show win1_1.index t (1 : Fin 2) * 1 + 1 * 0 = 0; omega

/-- An index of the output array is in point `t`'s block iff each coordinate is in the block's range on its axis. -/
theorem mem_blk1 (t : Fin cfg1.N) (i : S1605632x48.Idx) :
    i ∈ ((cfg1.win 2).blk t).view.set ↔ ∀ a : Fin 2, win1_2.index t a * S8192x48.size a ≤ (i a).val ∧ (i a).val < win1_2.index t a * S8192x48.size a + S8192x48.size a := by
  show i ∈ ((View.whole main_v11).slice (win1_2.rect t)).set ↔ _
  rw [View.set_slice_whole, Rect.mem_set_unit]
  exact Iff.rfl

/-- The 196 blocks of 8192 edges tile the 1605632 edges: edge row `r` lies in the block of point `r / 8192`. -/
theorem cover1 (i : S1605632x48.Idx) : ∃ t : Fin cfg1.N, (cfg1.win 2).flush t = true ∧ i ∈ ((cfg1.win 2).blk t).view.set := by
  have hi0 : (i 0).val < 1605632 := idx2_lt0 i
  have hi1 : (i 1).val < 48 := idx2_lt1 i
  have hN : (i 0).val / 8192 < cfg1.N := by show (i 0).val / 8192 < 196; omega
  obtain ⟨-, -, -, -, e4, e5⟩ := index_facts1 ⟨(i 0).val / 8192, hN⟩
  refine ⟨⟨(i 0).val / 8192, hN⟩, flush1_2 _, ?_⟩
  rw [mem_blk1]
  intro a
  match a with
  | ⟨0, _⟩ =>
    show win1_2.index ⟨(i 0).val / 8192, hN⟩ (0 : Fin 2) * 8192 ≤ (i 0).val ∧ (i 0).val < win1_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win1_2.index ⟨(i 0).val / 8192, hN⟩ (1 : Fin 2) * 48 ≤ (i 1).val ∧ (i 1).val < win1_2.index ⟨(i 0).val / 8192, hN⟩ (1 : Fin 2) * 48 + 48
    rw [e5]; omega

/-- Region 1: the rows taken from the features. -/
theorem mul1_arr (c : Dev nD) : (dat1 (F := Ideal) V c).arrAt 2 cfg1.N = mulT (V c main_v10) (V c main_v7) := by
  exact (dat1 V c).arrAt_eq_of_cover 2 (mulT (rows1 V c) (wcol V c)) (fun t _ => flushed1_eq V c t) cover1

/-! # Region 3 -/

/-- The rows region 3 weights, at their literal type. -/
abbrev rows3 (c : Dev nD) : FVec Ideal S1605632x48 .f32 := V c main_v16

/-- The block's product at an index, for the second weighting: entry times weight, the weight read at column 0 of the
    same row. -/
theorem weighted_block3_apply (w : Vec Ideal S8192x1 .f32) (g : Vec Ideal S8192x48 .f32) (p : Fin 8192) (q : Fin 48) :
    k3_pay1 w g (ix2 p q) = g (ix2 p q) * w (ix2 p 0) := by
  unfold k3_pay1
  rw [mulf_apply, shapeCast_self, shapeCast_self, shapeCast_self]
  exact congrArg (g (ix2 p q) * ·) (broadcastTo_apply w broadcasts_S8192x1_S8192x48 (ix2 p q) (ix2 p 0)
    (fun a => by match a with | ⟨0, _⟩ => rfl | ⟨1, _⟩ => rfl))

/-- A block of the second weighting's products is a block of the whole-array product, once the row block's entry sits at
    array index `i` and the weight block's entry at `i`'s edge row, column 0. -/
theorem weighted_block3 (g : FVec Ideal S1605632x48 .f32) (wc : FVec Ideal S1605632x1 .f32)
    (x0 : Vec Ideal S8192x48 .f32) (x1 : Vec Ideal S8192x1 .f32) (i : S1605632x48.Idx) (p : Fin 8192) (q : Fin 48)
    (h0 : x0 (ix2 p q) = g i) (h1 : x1 (ix2 p 0) = wc (ix2 ⟨(i 0).val, idx2_lt0 i⟩ 0)) :
    k3_pay1 x1 x0 (ix2 p q) = mulT g wc i := by
  rw [weighted_block3_apply, h0, h1]
  rfl

/-- Region 3's windows' block indices at grid point `t`: block `t` along the edges, block 0 across. -/
theorem index_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What grid point `t` of region 3 writes back is block `t` of the whole-array product. -/
theorem flushed3_eq (c : Dev nD) (t : Fin cfg3.N) :
    (dat3 (F := Ideal) V c).flushed 2 t = ((cfg3.win 2).blk t).view.read (Elt Ideal) (mulT (rows3 V c) (wcol V c)) := by
  show (cfg3.win 2).cut (grid3.coords t) ((dat3 V c).after 2 t) = _
  rw [after3_2]
  unfold out3_2
  rw [View.canon_unit_zero zero_offsets]
  simp only [View.ld_unit_zero (S := S8192x48) zero_offsets, View.ld_unit_zero (S := S8192x1) zero_offsets]
  obtain ⟨e0, e1, e2, e3, e4, e5⟩ := index_facts3 t
  funext j
  obtain ⟨p, q, rfl⟩ : ∃ (p : Fin 8192) (q : Fin 48), j = ix2 p q := ⟨j 0, j 1, eq_ix2 j⟩
  show k3_pay1 (iblk3 V c 1 t) (iblk3 V c 0 t) (ix2 p q) = mulT (rows3 V c) (wcol V c) (((cfg3.win 2).blk t).view.emb (ix2 p q))
  refine weighted_block3 (rows3 V c) (wcol V c) _ _ _ p q ?_ ?_
  · show rows3 V c (((cfg3.win 0).blk t).view.emb (ix2 p q)) = rows3 V c (((cfg3.win 2).blk t).view.emb (ix2 p q))
    refine congrArg (rows3 V c) (funext fun a => Fin.ext ?_)
    match a with
    | ⟨0, _⟩ => show win3_0.index t (0 : Fin 2) * 8192 + 1 * p.val = win3_2.index t (0 : Fin 2) * 8192 + 1 * p.val; omega
    | ⟨1, _⟩ => show win3_0.index t (1 : Fin 2) * 48 + 1 * q.val = win3_2.index t (1 : Fin 2) * 48 + 1 * q.val; omega
  · show wcol V c (((cfg3.win 1).blk t).view.emb (ix2 p 0)) = wcol V c (ix2 ⟨((((cfg3.win 2).blk t).view.emb (ix2 p q)) 0).val, _⟩ 0)
    refine congrArg (wcol V c) (funext fun a => Fin.ext ?_)
    match a with
    | ⟨0, _⟩ => show win3_1.index t (0 : Fin 2) * 8192 + 1 * p.val = win3_2.index t (0 : Fin 2) * 8192 + 1 * p.val; omega
    | ⟨1, _⟩ => show win3_1.index t (1 : Fin 2) * 1 + 1 * 0 = 0; omega

/-- An index of region 3's output array is in point `t`'s block iff each coordinate is in the block's range. -/
theorem mem_blk3 (t : Fin cfg3.N) (i : S1605632x48.Idx) :
    i ∈ ((cfg3.win 2).blk t).view.set ↔ ∀ a : Fin 2, win3_2.index t a * S8192x48.size a ≤ (i a).val ∧ (i a).val < win3_2.index t a * S8192x48.size a + S8192x48.size a := by
  show i ∈ ((View.whole main_v17).slice (win3_2.rect t)).set ↔ _
  rw [View.set_slice_whole, Rect.mem_set_unit]
  exact Iff.rfl

/-- Region 3's 196 blocks tile the 1605632 edges the same way: edge row `r` lies in the block of point `r / 8192`. -/
theorem cover3 (i : S1605632x48.Idx) : ∃ t : Fin cfg3.N, (cfg3.win 2).flush t = true ∧ i ∈ ((cfg3.win 2).blk t).view.set := by
  have hi0 : (i 0).val < 1605632 := idx2_lt0 i
  have hi1 : (i 1).val < 48 := idx2_lt1 i
  have hN : (i 0).val / 8192 < cfg3.N := by show (i 0).val / 8192 < 196; omega
  obtain ⟨-, -, -, -, e4, e5⟩ := index_facts3 ⟨(i 0).val / 8192, hN⟩
  refine ⟨⟨(i 0).val / 8192, hN⟩, flush3_2 _, ?_⟩
  rw [mem_blk3]
  intro a
  match a with
  | ⟨0, _⟩ =>
    show win3_2.index ⟨(i 0).val / 8192, hN⟩ (0 : Fin 2) * 8192 ≤ (i 0).val ∧ (i 0).val < win3_2.index ⟨(i 0).val / 8192, hN⟩ (0 : Fin 2) * 8192 + 8192
    rw [e4]; show (i 0).val / 8192 * 8192 ≤ (i 0).val ∧ (i 0).val < (i 0).val / 8192 * 8192 + 8192; omega
  | ⟨1, _⟩ =>
    show win3_2.index ⟨(i 0).val / 8192, hN⟩ (1 : Fin 2) * 48 ≤ (i 1).val ∧ (i 1).val < win3_2.index ⟨(i 0).val / 8192, hN⟩ (1 : Fin 2) * 48 + 48
    rw [e5]; omega

/-- Region 3: the rows taken from the first propagation step. -/
theorem mul3_arr (c : Dev nD) : (dat3 (F := Ideal) V c).arrAt 2 cfg3.N = mulT (V c main_v16) (V c main_v7) := by
  exact (dat3 V c).arrAt_eq_of_cover 2 (mulT (rows3 V c) (wcol V c)) (fun t _ => flushed3_eq V c t) cover3

end Cert.KernelIdeal.Regions

end
-- ==== Proof.LibPadSum.lean ====
/-
  A vector padded at its high end, read at an entry; and a sum over a padded index range whose tail vanishes.

  Padding a vector of length `E` at its high end to length `T` keeps entry `k` for `k < E` and holds the padding value
  from `E` on. A finite sum over `T` indices of a function that vanishes from `E` on is the sum over the first `E`.
-/
import Idealize.ShloMosaic.Lib.ValueIdx

noncomputable section

open scoped BigOperators

namespace Idealize.ShloMosaic.PadSum

open Idealize.ShloMosaic Idealize.ShloMosaic.ValueIdx

/-- The high-padded vector at `j`: the operand's entry below `E`, the padding value from `E` on. -/
theorem pad_high_apply {α : Type} {E P T : Nat} (h : (⟨1, ![E]⟩ : Shape).Pads ![0] ![P] ![0] ⟨1, ![T]⟩)
    (hu : 0 < (⟨0, ![]⟩ : Shape).numel) (x : (⟨1, ![E]⟩ : Shape).Idx → α) (v : (⟨0, ![]⟩ : Shape).Idx → α)
    (j : (⟨1, ![T]⟩ : Shape).Idx) :
    pad ⟨1, ![T]⟩ ![0] ![P] ![0] x v h hu j = if hlt : (j 0).val < E then x (ix1 ⟨(j 0).val, hlt⟩) else v ix0 := by
  unfold pad
  by_cases hlt : (j 0).val < E
  · -- Below `E`: the one axis passes the range test, and the operand coordinate `(j 0 - 0) / (0 + 1)` is `j 0`.
    rw [dif_pos hlt]
    split_ifs with hin
    · congr 1
      funext a
      match a with
      | ⟨0, _⟩ =>
        apply Fin.ext
        show ((j 0).val - 0) / (0 + 1) = (j 0).val
        rw [Nat.sub_zero, Nat.zero_add, Nat.div_one]
    · exfalso
      apply hin
      intro a
      match a with
      | ⟨0, _⟩ =>
        show 0 ≤ (j 0).val ∧ ((j 0).val - 0) % (0 + 1) = 0 ∧ ((j 0).val - 0) / (0 + 1) < E
        rw [Nat.sub_zero, Nat.zero_add, Nat.div_one, Nat.mod_one]
        exact ⟨Nat.zero_le _, rfl, hlt⟩
  · -- From `E` on: the range test fails on the one axis, and the scalar shape has a single index.
    rw [dif_neg hlt]
    split_ifs with hin
    · exfalso
      apply hlt
      have h1 : ((j 0).val - 0) / (0 + 1) < E := (hin ⟨0, Nat.one_pos⟩).2.2
      rw [Nat.sub_zero, Nat.zero_add, Nat.div_one] at h1
      exact h1
    · exact congrArg v (eq_ix0 _)

/-- A sum over `T` indices whose terms vanish from `E` on is the sum over the first `E`. -/
theorem sum_fin_of_tail_zero {M : Type} [AddCommMonoid M] {E T : Nat} (hle : E ≤ T) (g : Fin T → M)
    (hz : ∀ k : Fin T, E ≤ k.val → g k = 0) :
    ∑ k : Fin T, g k = ∑ k : Fin E, g (Fin.castLE hle k) := by
  -- Write `T = E + d`, split the sum at `E`, and drop the upper block, every term of which vanishes.
  obtain ⟨d, rfl⟩ := Nat.exists_eq_add_of_le hle
  rw [Fin.sum_univ_add]
  have htail : ∑ k : Fin d, g (Fin.natAdd E k) = 0 :=
    Finset.sum_eq_zero fun k _ => hz _ (by simp [Fin.natAdd])
  rw [htail, add_zero]
  rfl

end Idealize.ShloMosaic.PadSum

end
-- ==== Proof.LibTileSum.lean ====
/-
  Three readings at an entry, over the extended reals where a sum is involved.

  The host's sum of a `[T, C, D]` array over its leading axis, into a zero initial value, is at entry `(c, f)` the sum
  over `t` of the entries `(t, c, f)`. A vector reshaped to a one-row matrix reads, at `(0, f)`, the vector at `f`; reshaped
  to a one-column matrix it reads, at `(n, 0)`, the vector at `n`.
-/
import Idealize.ShloMosaic.PureOps.Ideal.Laws
import Idealize.ShloMosaic.Lib.ValueIdx
import Idealize.ShloMosaic.Lib.IdealHost
import Idealize.ShloMosaic.Lib.Pipeline.Value

noncomputable section

open scoped BigOperators

namespace Cert.Lib.TileSum

open Idealize.ShloMosaic Idealize.ShloMosaic.ValueIdx

variable {T C D N : Nat}

/-- Over result entry `(c, f)`, the source index with `t` inserted on the leading axis is `(t, c, f)`. -/
theorem lift_lead (h : (⟨3, ![T, C, D]⟩ : Shape).Reduces [0] ⟨2, ![C, D]⟩) (c : Fin C) (f : Fin D)
    (t : Fin ((⟨3, ![T, C, D]⟩ : Shape).size 0)) :
    h.lift (ix2 c f) t = ix3 (n0 := T) t c f := by
  funext a
  apply Fin.ext
  show h.liftVal (ix2 c f) t.val a = _
  unfold Shape.Reduces.liftVal
  match a with
  | ⟨0, _⟩ => simp
  | ⟨1, _⟩ => simp
  | ⟨2, _⟩ => simp

/-- The host's sum over the leading axis, from the zero initial value, at an entry. -/
theorem reduce_lead (h' : (⟨3, ![T, C, D]⟩ : Shape).ReducesTo [0] ⟨2, ![C, D]⟩)
    (h : (⟨3, ![T, C, D]⟩ : Shape).Reduces [0] ⟨2, ![C, D]⟩) (hu : 0 < (⟨0, ![]⟩ : Shape).numel)
    (X : FVec Ideal ⟨3, ![T, C, D]⟩ .f32) (c : Fin C) (f : Fin D) :
    Host.reduceAdd X (constant ⟨0, ![]⟩ .f32 0x00000000#32) h' hu (ix2 c f) = ∑ t : Fin T, X (ix3 t c f) := by
  show _ = ∑ t : Fin ((⟨3, ![T, C, D]⟩ : Shape).size 0), X (ix3 (n0 := T) t c f)
  rw [hostReduceAdd_apply, Ideal.hostReduceAdd_single h' h]
  show Ideal.ofBits .f32 0x00000000#32 + _ = _
  rw [Ideal.ofBits_zero_f32, zero_add]
  exact Finset.sum_congr rfl fun t _ => congrArg X (lift_lead h c f t)

/-- A vector as a one-row matrix, at `(0, f)`. -/
theorem cast_row {α : Type} (a : (⟨1, ![D]⟩ : Shape).Idx → α) (h : (⟨1, ![D]⟩ : Shape).ShapeCasts ⟨2, ![1, D]⟩) (f : Fin D) :
    shapeCast ⟨2, ![1, D]⟩ a h (ix2 0 f) = a (ix1 f) := by
  refine shapeCast_apply a h (ix2 0 f) (ix1 f) ?_
  rw [Shape.rowMajor_val_one, Shape.rowMajor_val_two]
  show f.val = (0 : Fin 1).val * D + f.val
  simp

/-- A vector as a one-column matrix, at `(n, 0)`. -/
theorem cast_col {α : Type} (a : (⟨1, ![N]⟩ : Shape).Idx → α) (h : (⟨1, ![N]⟩ : Shape).ShapeCasts ⟨2, ![N, 1]⟩) (n : Fin N) :
    shapeCast ⟨2, ![N, 1]⟩ a h (ix2 n 0) = a (ix1 n) := by
  refine shapeCast_apply a h (ix2 n 0) (ix1 n) ?_
  rw [Shape.rowMajor_val_one, Shape.rowMajor_val_two]
  show n.val = n.val * 1 + (0 : Fin 1).val
  simp

end Cert.Lib.TileSum

end
-- ==== Proof.KPads.lean ====
/-
  The kernel's padded edge data, in pure terms.

  Row 0 of the 2 × 1600000 table of node numbers, flattened and padded with 5632 zeros, is the padded source numbers; row 1
  the padded destination numbers. The 1600000 weights padded with 5632 zeros (the zero an integer 0 converted to a float)
  and reshaped to a column are the padded weight column. The accumulator every propagation step scatters into is zero.
-/
import proofs.«430481_j77996606095425_1_alg».proof.Proof.KTerms
import proofs.«430481_j77996606095425_1_alg».proof.Proof.LibPadSum
import proofs.«430481_j77996606095425_1_alg».proof.Proof.LibTileSum
import Idealize.ShloMosaic.Lib.Pipeline.Value
import Idealize.ShloMosaic.Lib.StableHlo.Predicate

noncomputable section

namespace Cert.KernelIdeal.Terms

open Cert.KernelIdeal Cert.KernelIdeal.Gen Cert.Spread Idealize.ShloMosaic Idealize.ShloMosaic.ValueIdx

/-- Row `r` of the table, cut out as a 1 × 1600000 slab starting at `(r, 0)` and flattened, read at edge `e`, is the
    table's entry `(r, e)`: flattening keeps the row-major position `0 · 1600000 + e`. -/
theorem row_apply (a : IVec S2x1600000 32) (r : Fin 2) (hs : S2x1600000.Slices ![r.val, 0] S1x1600000)
    (hc : S1x1600000.ShapeCasts S1600000) (e : Fin 1600000) :
    shapeCast S1600000 (extractStridedSlice S1x1600000 ![r.val, 0] a hs) hc (ix1 e) = a (ix2 r e) := by
  have he : e.val < 1600000 := e.isLt
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ _ hs (ix2 (0 : Fin 1) e) (ix2 r e) fun d => ?_
    match d with
    | ⟨0, _⟩ => show r.val = r.val + 0; omega
    | ⟨1, _⟩ => show e.val = 0 + e.val; omega

/-- Row 0, flattened and padded with zeros, is the padded source numbers. -/
theorem padSrc_eq (a : IVec S2x1600000 32) :
    pad S1605632 ![0] ![5632] ![0]
      (fun i => shapeCast S1600000 (extractStridedSlice S1x1600000 ![0, 0] a slices_S2x1600000_S1x1600000_0_0)
        shapeCasts_S1x1600000_S1600000 i)
      (id (constantI S_ 32 0#32)) pads_S1600000_S1605632_056320 h_S_ = padI (srcOf a) := by
  funext j
  rw [PadSum.pad_high_apply]
  unfold padI srcOf
  by_cases h : (j 0).val < 1600000
  · rw [dif_pos h, dif_pos h]
    exact row_apply a 0 slices_S2x1600000_S1x1600000_0_0 shapeCasts_S1x1600000_S1600000 ⟨(j 0).val, h⟩
  · rw [dif_neg h, dif_neg h]
    rfl

/-- Row 1, flattened and padded with zeros, is the padded destination numbers. -/
theorem padDst_eq (a : IVec S2x1600000 32) :
    pad S1605632 ![0] ![5632] ![0]
      (fun i => shapeCast S1600000 (extractStridedSlice S1x1600000 ![1, 0] a slices_S2x1600000_S1x1600000_1_0)
        shapeCasts_S1x1600000_S1600000 i)
      (id (constantI S_ 32 0#32)) pads_S1600000_S1605632_056320 h_S_ = padI (dstOf a) := by
  funext j
  rw [PadSum.pad_high_apply]
  unfold padI dstOf
  by_cases h : (j 0).val < 1600000
  · rw [dif_pos h, dif_pos h]
    exact row_apply a 1 slices_S2x1600000_S1x1600000_1_0 shapeCasts_S1x1600000_S1600000 ⟨(j 0).val, h⟩
  · rw [dif_neg h, dif_neg h]
    rfl

/-- The integer 0 converted to a float is 0. -/
theorem sitofp_zero : (sitofp (F := Ideal) .f32 (constantI S_ 32 0#32)) ix0 = (0 : EReal) := by
  show (((0#32 : BitVec 32).toInt : ℝ) : EReal) = 0
  rw [BitVec.toInt_zero, Int.cast_zero, EReal.coe_zero]

/-- The weights padded with zeros and reshaped to a column are the padded weight column. -/
theorem padW_eq (v : FVec Ideal S1600000 .f32) :
    (fun i => shapeCast S1605632x1
        (pad S1605632 ![0] ![5632] ![0] v (sitofp (F := Ideal) .f32 (constantI S_ 32 0#32)) pads_S1600000_S1605632_056320 h_S_)
        shapeCasts_S1605632_S1605632x1 i) = padW (wOf v) := by
  funext j
  obtain ⟨e, rfl⟩ : ∃ e : Fin 1605632, j = ix2 e 0 :=
    ⟨⟨(j 0).val, idx2_lt0 j⟩, funext fun d => Fin.ext (by
      match d with
      | ⟨0, _⟩ => rfl
      | ⟨1, _⟩ => show (j 1).val = 0; have := idx2_lt1 j; omega)⟩
  rw [Cert.Lib.TileSum.cast_col, PadSum.pad_high_apply]
  unfold padW wOf
  by_cases h : e.val < 1600000
  · rw [dif_pos (show ((ix1 e : S1605632.Idx) 0).val < 1600000 from h), dif_pos (show ((ix2 e (0 : Fin 1) : S1605632x1.Idx) 0).val < 1600000 from h)]
  · rw [dif_neg (show ¬ ((ix1 e : S1605632.Idx) 0).val < 1600000 from h), dif_neg (show ¬ ((ix2 e (0 : Fin 1) : S1605632x1.Idx) 0).val < 1600000 from h)]
    exact sitofp_zero

/-- The accumulator a propagation step scatters into holds zero everywhere. -/
theorem zeros_apply (i : S100000x48.Idx) :
    broadcastInDim S100000x48 ![] bcast_S_S100000x48 (constant (F := Ideal) S_ .f32 0x00000000#32) i = (0 : EReal) := by
  rw [StableHlo.Predicate.bcast_scalar _ h_S_]
  exact Ideal.ofBits_zero_f32

end Cert.KernelIdeal.Terms

end
-- ==== Proof.KFold.lean ====
/-
  The kernel's run boundary by boundary: what each array holds when the next segment of the program starts.

  The program is seven stretches of host operations (the pads of the source numbers, the destination numbers and the
  weights; the weights as a column; the zeros), then five block-pipelined regions with a stretch of host operations before
  each of the last four: accumulate, [take, weight, scatter, accumulate] twice. Each array is written by exactly one
  segment and read by later ones; every other segment leaves it as it was.
-/
import proofs.«430481_j77996606095425_1_alg».proof.Proof.Gen.KernelIdeal.Frame
import proofs.«430481_j77996606095425_1_alg».proof.Proof.KTerms
import proofs.«430481_j77996606095425_1_alg».proof.Proof.KRegionsFma
import proofs.«430481_j77996606095425_1_alg».proof.Proof.KRegionsMul
import proofs.«430481_j77996606095425_1_alg».proof.Proof.KPads
import Idealize.ShloMosaic.Lib.StableHlo.Run

set_option maxRecDepth 16384

noncomputable section

namespace Cert.KernelIdeal.Fold

open Cert.KernelIdeal Cert.KernelIdeal.Gen Cert.KernelIdeal.Terms Cert.KernelIdeal.Regions Cert.Spread
open Idealize.ShloMosaic Idealize.ShloMosaic.TcCoe Idealize.ShloMosaic.ValueIdx Idealize.SL.Sem

variable (m : (ℓ : Loc nD τ sig) → Buf (Elt Ideal) ℓ) (ρ : Dev nD → PrngReg)

/-- A buffer that no operation of a stretch writes holds after the stretch what it held before. -/
macro "stretch_keeps" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Contents carried to a buffer and back

The operations of the program's two takes name their buffers by typed references and carry each value to its buffer's
own type and back. Both passages are the identity: generally for a passage there and back, and for a single passage at
a literal reference, whose buffer's type IS the value's type. -/

/-- Contents carried to a typed reference's buffer and back are the contents. -/
theorem ofBuf_toBuf {sig : RefSig} {Val : EltTy → Type} {T : BufTy} (x : StableHlo.TRef sig T) (v : T.Contents Val) :
    x.ofBuf (x.toBuf v) = v := by
  obtain ⟨r, ty_eq, _, _⟩ := x
  subst ty_eq
  rfl

theorem toBuf_v10 (h1 h2 h3) (v : FVec Ideal S1605632x48 .f32) :
    (StableHlo.TRef.of (sig := sig) (T := ⟨S1605632x48, .f32⟩) main_v10 h1 h2 h3).toBuf (Val := Elt Ideal) v = v := rfl
theorem toBuf_v16 (h1 h2 h3) (v : FVec Ideal S1605632x48 .f32) :
    (StableHlo.TRef.of (sig := sig) (T := ⟨S1605632x48, .f32⟩) main_v16 h1 h2 h3).toBuf (Val := Elt Ideal) v = v := rfl
theorem ofBuf_v4 (h1 h2 h3) (v : IVec S1605632 32) :
    (StableHlo.TRef.of (sig := sig) (T := ⟨S1605632, .i32⟩) main_v4 h1 h2 h3).ofBuf (Val := Elt Ideal) v = v := rfl
theorem ofBuf_arg0 (h1 h2 h3) (v : FVec Ideal S100000x48 .f32) :
    (StableHlo.TRef.of (sig := sig) (T := ⟨S100000x48, .f32⟩) main_arg0 h1 h2 h3).ofBuf (Val := Elt Ideal) v = v := rfl
theorem ofBuf_v14 (h1 h2 h3) (v : FVec Ideal S100000x48 .f32) :
    (StableHlo.TRef.of (sig := sig) (T := ⟨S100000x48, .f32⟩) main_v14 h1 h2 h3).ofBuf (Val := Elt Ideal) v = v := rfl

theorem toBuf_v4 (h1 h2 h3) (v : IVec S1605632 32) :
    (StableHlo.TRef.of (sig := sig) (T := ⟨S1605632, .i32⟩) main_v4 h1 h2 h3).toBuf (Val := Elt Ideal) v = v := rfl
theorem ofBuf_v1 (h1 h2 h3) (v : IVec S1600000 32) :
    (StableHlo.TRef.of (sig := sig) (T := ⟨S1600000, .i32⟩) main_v1 h1 h2 h3).ofBuf (Val := Elt Ideal) v = v := rfl
theorem ofBuf_c (h1 h2 h3) (v : IVec S_ 32) :
    (StableHlo.TRef.of (sig := sig) (T := ⟨S_, .i32⟩) main_c h1 h2 h3).ofBuf (Val := Elt Ideal) v = v := rfl
theorem toBuf_v5 (h1 h2 h3) (v : IVec S1605632 32) :
    (StableHlo.TRef.of (sig := sig) (T := ⟨S1605632, .i32⟩) main_v5 h1 h2 h3).toBuf (Val := Elt Ideal) v = v := rfl
theorem ofBuf_v3 (h1 h2 h3) (v : IVec S1600000 32) :
    (StableHlo.TRef.of (sig := sig) (T := ⟨S1600000, .i32⟩) main_v3 h1 h2 h3).ofBuf (Val := Elt Ideal) v = v := rfl
theorem ofBuf_c_0 (h1 h2 h3) (v : IVec S_ 32) :
    (StableHlo.TRef.of (sig := sig) (T := ⟨S_, .i32⟩) main_c_0 h1 h2 h3).ofBuf (Val := Elt Ideal) v = v := rfl
theorem toBuf_v6 (h1 h2 h3) (v : FVec Ideal S1605632 .f32) :
    (StableHlo.TRef.of (sig := sig) (T := ⟨S1605632, .f32⟩) main_v6 h1 h2 h3).toBuf (Val := Elt Ideal) v = v := rfl
theorem ofBuf_arg1 (h1 h2 h3) (v : FVec Ideal S1600000 .f32) :
    (StableHlo.TRef.of (sig := sig) (T := ⟨S1600000, .f32⟩) main_arg1 h1 h2 h3).ofBuf (Val := Elt Ideal) v = v := rfl
theorem ofBuf_c_1 (h1 h2 h3) (v : IVec S_ 32) :
    (StableHlo.TRef.of (sig := sig) (T := ⟨S_, .i32⟩) main_c_1 h1 h2 h3).ofBuf (Val := Elt Ideal) v = v := rfl

/-! ## The opening stretches: the padded edge data and the zeros -/

/-- The features are untouched by the opening stretches. -/
theorem W7_arg0 (c : Dev nD) : W7 m ρ c (Proc.devRef .tc main_arg0) = m ((c : Thread nD τ).loc main_arg0) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_arg0) = _
  after_results_simp

/-- The padded source numbers. -/
theorem W7_v4 (c : Dev nD) : W7 m ρ c (Proc.devRef .tc main_v4) = padI (srcOf (m ((c : Thread nD τ).loc main_arg2))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v4) = _
  after_results_simp
  simp only [ofBuf_toBuf, toBuf_v4, ofBuf_v1, ofBuf_c]
  exact padSrc_eq _

/-- The padded destination numbers. -/
theorem W7_v5 (c : Dev nD) : W7 m ρ c (Proc.devRef .tc main_v5) = padI (dstOf (m ((c : Thread nD τ).loc main_arg2))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v5) = _
  after_results_simp
  simp only [ofBuf_toBuf, toBuf_v5, ofBuf_v3, ofBuf_c_0]
  exact padDst_eq _

/-- The padded weight column. -/
theorem W7_v7 (c : Dev nD) : W7 m ρ c (Proc.devRef .tc main_v7) = padW (wOf (m ((c : Thread nD τ).loc main_arg1))) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v7) = _
  after_results_simp
  simp only [ofBuf_toBuf, toBuf_v6, ofBuf_arg1, ofBuf_c_1]
  exact padW_eq _

/-- The zeros the first accumulate region starts from. -/
theorem W7_v8 (c : Dev nD) (i : S100000x48.Idx) : W7 m ρ c (Proc.devRef .tc main_v8) i = (0 : EReal) := by
  show StableHlo.after hostOps0_6 (StableHlo.after hostOps0_5 (StableHlo.after hostOps0_4 (StableHlo.after hostOps0_3 (StableHlo.after hostOps0_2 (StableHlo.after hostOps0_1 (StableHlo.after hostOps0 (W0 m ρ c))))))) (Proc.devRef .tc main_v8) i = _
  after_results_simp
  exact zeros_apply i

/-! ## The first accumulate region: `0 + features · third` -/

theorem W8_v9 (c : Dev nD) :
    W8 m ρ c (Proc.devRef .tc main_v9) = fmaT (W7 m ρ c (Proc.devRef .tc main_v8)) (W7 m ρ c (Proc.devRef .tc main_arg0)) :=
  (W8_arr m ρ c 2).trans (fma0_arr (V7 m ρ) c)

/-! ## The first propagation step: take, weight, scatter -/

theorem W9_v10 (c : Dev nD) :
    W9 m ρ c (Proc.devRef .tc main_v10) = takeT (W8 m ρ c (Proc.devRef .tc main_arg0)) (W8 m ρ c (Proc.devRef .tc main_v4)) := by
  show StableHlo.after hostOps1 (W8 m ρ c) (Proc.devRef .tc main_v10) = _
  after_results_simp
  simp only [ofBuf_toBuf, toBuf_v10, ofBuf_v4, ofBuf_arg0]
  unfold takeT
  rfl

theorem W10_v11 (c : Dev nD) :
    W10 m ρ c (Proc.devRef .tc main_v11) = mulT (W9 m ρ c (Proc.devRef .tc main_v10)) (W9 m ρ c (Proc.devRef .tc main_v7)) :=
  (W10_arr m ρ c 2).trans (mul1_arr (V9 m ρ) c)

theorem W11_v14 (c : Dev nD) :
    W11 m ρ c (Proc.devRef .tc main_v14) = scatT (W10 m ρ c (Proc.devRef .tc main_v5)) (W10 m ρ c (Proc.devRef .tc main_v11)) := by
  show StableHlo.after hostOps2 (W10 m ρ c) (Proc.devRef .tc main_v14) = _
  after_results
  rfl

theorem W12_v15 (c : Dev nD) :
    W12 m ρ c (Proc.devRef .tc main_v15) = fmaT (W11 m ρ c (Proc.devRef .tc main_v9)) (W11 m ρ c (Proc.devRef .tc main_v14)) :=
  (W12_arr m ρ c 2).trans (fma2_arr (V11 m ρ) c)

/-! ## The second propagation step -/

theorem W13_v16 (c : Dev nD) :
    W13 m ρ c (Proc.devRef .tc main_v16) = takeT (W12 m ρ c (Proc.devRef .tc main_v14)) (W12 m ρ c (Proc.devRef .tc main_v4)) := by
  show StableHlo.after hostOps3 (W12 m ρ c) (Proc.devRef .tc main_v16) = _
  after_results_simp
  simp only [ofBuf_toBuf, toBuf_v16, ofBuf_v4, ofBuf_v14]
  unfold takeT
  rfl

theorem W14_v17 (c : Dev nD) :
    W14 m ρ c (Proc.devRef .tc main_v17) = mulT (W13 m ρ c (Proc.devRef .tc main_v16)) (W13 m ρ c (Proc.devRef .tc main_v7)) :=
  (W14_arr m ρ c 2).trans (mul3_arr (V13 m ρ) c)

theorem W15_v20 (c : Dev nD) :
    W15 m ρ c (Proc.devRef .tc main_v20) = scatT (W14 m ρ c (Proc.devRef .tc main_v5)) (W14 m ρ c (Proc.devRef .tc main_v17)) := by
  show StableHlo.after hostOps4 (W14 m ρ c) (Proc.devRef .tc main_v20) = _
  after_results
  rfl

theorem W16_v21 (c : Dev nD) :
    W16 m ρ c (Proc.devRef .tc main_v21) = fmaT (W15 m ρ c (Proc.devRef .tc main_v15)) (W15 m ρ c (Proc.devRef .tc main_v20)) :=
  (W16_arr m ρ c 2).trans (fma4_arr (V15 m ρ) c)

/-! ## What later segments find where earlier ones left it -/

/-- The features are as they were when the first propagation step takes rows of them. -/
theorem arg0_at8 (c : Dev nD) : W8 m ρ c (Proc.devRef .tc main_arg0) = W7 m ρ c (Proc.devRef .tc main_arg0) :=
  ((W8_arr m ρ c 1).trans (((dat0 (V7 m ρ) c).arrAt_in 1 rfl _).trans (A_eq0 (V7 m ρ) c 1)))

/-- The padded source numbers, when the first take reads them … -/
theorem v4_at8 (c : Dev nD) : W8 m ρ c (Proc.devRef .tc main_v4) = W7 m ρ c (Proc.devRef .tc main_v4) :=
  (W8_of_ne m ρ c main_v4 (by decide))

/-- … and when the second does. -/
theorem v4_at12 (c : Dev nD) : W12 m ρ c (Proc.devRef .tc main_v4) = W7 m ρ c (Proc.devRef .tc main_v4) :=
  (W12_of_ne m ρ c main_v4 (by decide)).trans <|
    (by stretch_keeps hostOps2 : W11 m ρ c (Proc.devRef .tc main_v4) = W10 m ρ c (Proc.devRef .tc main_v4)).trans <|
    (W10_of_ne m ρ c main_v4 (by decide)).trans <|
    (by stretch_keeps hostOps1 : W9 m ρ c (Proc.devRef .tc main_v4) = W8 m ρ c (Proc.devRef .tc main_v4)).trans <|
    (W8_of_ne m ρ c main_v4 (by decide))

/-- The padded weight column, when the first weighting region reads it … -/
theorem v7_at9 (c : Dev nD) : W9 m ρ c (Proc.devRef .tc main_v7) = W7 m ρ c (Proc.devRef .tc main_v7) :=
  (by stretch_keeps hostOps1 : W9 m ρ c (Proc.devRef .tc main_v7) = W8 m ρ c (Proc.devRef .tc main_v7)).trans <|
    (W8_of_ne m ρ c main_v7 (by decide))

/-- … and when the second does. -/
theorem v7_at13 (c : Dev nD) : W13 m ρ c (Proc.devRef .tc main_v7) = W7 m ρ c (Proc.devRef .tc main_v7) :=
  (by stretch_keeps hostOps3 : W13 m ρ c (Proc.devRef .tc main_v7) = W12 m ρ c (Proc.devRef .tc main_v7)).trans <|
    (W12_of_ne m ρ c main_v7 (by decide)).trans <|
    (by stretch_keeps hostOps2 : W11 m ρ c (Proc.devRef .tc main_v7) = W10 m ρ c (Proc.devRef .tc main_v7)).trans <|
    ((W10_arr m ρ c 1).trans (((dat1 (V9 m ρ) c).arrAt_in 1 rfl _).trans (A_eq1 (V9 m ρ) c 1))).trans <|
    (by stretch_keeps hostOps1 : W9 m ρ c (Proc.devRef .tc main_v7) = W8 m ρ c (Proc.devRef .tc main_v7)).trans <|
    (W8_of_ne m ρ c main_v7 (by decide))

/-- The padded destination numbers, when the first scatter reads them … -/
theorem v5_at10 (c : Dev nD) : W10 m ρ c (Proc.devRef .tc main_v5) = W7 m ρ c (Proc.devRef .tc main_v5) :=
  (W10_of_ne m ρ c main_v5 (by decide)).trans <|
    (by stretch_keeps hostOps1 : W9 m ρ c (Proc.devRef .tc main_v5) = W8 m ρ c (Proc.devRef .tc main_v5)).trans <|
    (W8_of_ne m ρ c main_v5 (by decide))

/-- … and when the second does. -/
theorem v5_at14 (c : Dev nD) : W14 m ρ c (Proc.devRef .tc main_v5) = W7 m ρ c (Proc.devRef .tc main_v5) :=
  (W14_of_ne m ρ c main_v5 (by decide)).trans <|
    (by stretch_keeps hostOps3 : W13 m ρ c (Proc.devRef .tc main_v5) = W12 m ρ c (Proc.devRef .tc main_v5)).trans <|
    (W12_of_ne m ρ c main_v5 (by decide)).trans <|
    (by stretch_keeps hostOps2 : W11 m ρ c (Proc.devRef .tc main_v5) = W10 m ρ c (Proc.devRef .tc main_v5)).trans <|
    (W10_of_ne m ρ c main_v5 (by decide)).trans <|
    (by stretch_keeps hostOps1 : W9 m ρ c (Proc.devRef .tc main_v5) = W8 m ρ c (Proc.devRef .tc main_v5)).trans <|
    (W8_of_ne m ρ c main_v5 (by decide))

/-- The first term of the average, when the second accumulate region reads it. -/
theorem v9_at11 (c : Dev nD) : W11 m ρ c (Proc.devRef .tc main_v9) = W8 m ρ c (Proc.devRef .tc main_v9) :=
  (by stretch_keeps hostOps2 : W11 m ρ c (Proc.devRef .tc main_v9) = W10 m ρ c (Proc.devRef .tc main_v9)).trans <|
    (W10_of_ne m ρ c main_v9 (by decide)).trans <|
    (by stretch_keeps hostOps1 : W9 m ρ c (Proc.devRef .tc main_v9) = W8 m ρ c (Proc.devRef .tc main_v9))

/-- The first propagation step's result, when the second take reads it. -/
theorem v14_at12 (c : Dev nD) : W12 m ρ c (Proc.devRef .tc main_v14) = W11 m ρ c (Proc.devRef .tc main_v14) :=
  ((W12_arr m ρ c 1).trans (((dat2 (V11 m ρ) c).arrAt_in 1 rfl _).trans (A_eq2 (V11 m ρ) c 1)))

/-- The running average, when the last accumulate region reads it. -/
theorem v15_at15 (c : Dev nD) : W15 m ρ c (Proc.devRef .tc main_v15) = W12 m ρ c (Proc.devRef .tc main_v15) :=
  (by stretch_keeps hostOps4 : W15 m ρ c (Proc.devRef .tc main_v15) = W14 m ρ c (Proc.devRef .tc main_v15)).trans <|
    (W14_of_ne m ρ c main_v15 (by decide)).trans <|
    (by stretch_keeps hostOps3 : W13 m ρ c (Proc.devRef .tc main_v15) = W12 m ρ c (Proc.devRef .tc main_v15))

end Cert.KernelIdeal.Fold

end
-- ==== Proof.KTake.lean ====
/-
  The masked take read at an entry.

  The take wraps each source number, tests the wrapped number against `[0, 99999]` (both comparisons signed), gathers the
  row the wrapped number names (clamped), and keeps the gathered row where the test passes, a junk value where it fails.
  An in-range source number wraps into `[0, 99999]`, so its test passes and the take reads the row it names.
-/
import proofs.«430481_j77996606095425_1_alg».proof.Proof.KTerms
import Idealize.ShloMosaic.Lib.StableHlo.Predicate
import Idealize.ShloMosaic.Lib.ReduceAll

noncomputable section

open scoped BigOperators

namespace Cert.KernelIdeal.Terms

open Cert.KernelIdeal Cert.KernelIdeal.Gen Cert.Spread Idealize.ShloMosaic Idealize.ShloMosaic.ValueIdx

/-! ## A conjunction over a list of bits, all of them set -/

/-- Folding `and` from the bit 1 over bits that are all 1 leaves 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, hl => by
    rw [List.foldl_cons, hl a List.mem_cons_self, show IntOp.andi (1#1 : BitVec 1) 1#1 = 1#1 from rfl]
    exact foldl_andi_of_all_one f l fun n hn => hl n (List.mem_cons_of_mem _ hn)

/-- A reduction by `and` from the bit 1 is 1 at a result index once every operand bit that reduces into that index
    is 1. -/
theorem reduce_andi_of_all_one {s t u : Shape} {axes : List (Fin s.rank)} (x : s.Idx → BitVec 1) (init : u.Idx → BitVec 1)
    (hr : s.ReducesTo axes t) (hu : 0 < u.numel) (j : t.Idx) (hinit : init (Shape.Idx.first hu) = 1#1)
    (hx : ∀ i, hr.drop i = j → x i = 1#1) : Host.reduce IntOp.andi x init hr hu j = 1#1 := by
  rw [Host.reduce_eq_foldl, hinit]
  refine foldl_andi_of_all_one x _ fun i hi => hx i ?_
  simpa using (List.mem_filter.1 hi).2

/-! ## A vector laid along the rows of a rectangle -/

/-- A vector of `n` entries broadcast along the first axis of an `n × m` rectangle reads, at `(p, q)`, its entry `p`. -/
theorem bcast_along_rows {α : Type} {n m : Nat} (hb : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] hb v (ix2 p q) = v (ix1 p) := by
  unfold broadcastInDim
  congr 1
  funext a
  obtain rfl : a = 0 := Subsingleton.elim _ _
  refine Fin.ext ?_
  split
  · next h1 =>
    have hn : n = 1 := h1
    have hp := p.isLt
    show (0 : Nat) = p.val
    omega
  · rfl

/-! ## The three stretches of the take, each read at an entry -/

/-- The wrapped source numbers, laid out as a column, read in row `e` the wrapped number of edge `e`: the program's
    wrap (compare with 0, add 100000, select) is `wrapRow` entry by entry. -/
theorem wrapCol_apply (sp : IVec S1605632 32) (e : Fin 1605632) (q : Fin 1) :
    broadcastInDim S1605632x1 ![0] bcast_S1605632_S1605632x1_0
        (select (cmpi .slt sp (broadcastInDim S1605632 ![] bcast_S_S1605632 (constantI S_ 32 0#32)))
          (addi sp (broadcastInDim S1605632 ![] bcast_S_S1605632 (constantI S_ 32 100000#32))) sp) (ix2 e q)
      = wrapRow (sp (ix1 e)) :=
  (bcast_along_rows _ _ e q).trans rfl

/-- The range test of a column of numbers (`0 ≤ v` and `v ≤ 99999`, signed, conjoined over the column's one entry
    per row) passes in a row whose number lies in `[0, 99999]`. -/
theorem rangeMask_apply (v : IVec S1605632x1 32) (e : Fin 1605632)
    (hv : 0 ≤ (v (ix2 e 0)).toInt ∧ (v (ix2 e 0)).toInt ≤ 99999) :
    Host.reduce IntOp.andi
        (andi (cmpi .sge v (broadcastInDim S1605632x1 ![] bcast_S_S1605632x1 (constantI S_ 32 0#32)))
          (cmpi .sle v (broadcastInDim S1605632x1 ![0, 1] bcast_S1x1_S1605632x1_0_1
            (broadcastInDim S1x1 ![1] bcast_S1_S1x1_1 (constantI S1 32 99999#32)))))
        (constantI S_ 1 1#1) reducesTo_S1605632x1_S1605632_d1 h_S_ (ix1 e) = 1#1 := by
  refine reduce_andi_of_all_one _ _ _ _ _ rfl fun i hi => ?_
  -- the only entry of the column that reduces into row e is (e, 0)
  have hrow : (reducesTo_S1605632x1_S1605632_d1.drop i 0 : Nat) = i 0 := Shape.ReducesTo.drop_apply_val _ i 0
  rw [hi] at hrow
  have hcol := idx2_lt1 i
  obtain rfl : i = ix2 e 0 := by
    funext b
    match b with
    | ⟨0, _⟩ => exact Fin.ext hrow.symm
    | ⟨1, _⟩ => exact Fin.ext (show (i 1).val = 0 by omega)
  show IntOp.andi (IntOp.cmpi .sge (v (ix2 e 0)) 0#32) (IntOp.cmpi .sle (v (ix2 e 0)) 99999#32) = 1#1
  rw [IntOp.andi_eq_one, IntOp.cmpi_sge, IntOp.cmpi_sle, show (0#32 : BitVec 32).toInt = 0 from by decide,
    show (99999#32 : BitVec 32).toInt = 99999 from by decide]
  exact hv

/-- The gather of rows reads, at `(e, c)`, column `c` of the row the column's number in row `e` names, that number
    read signed and clamped into `[0, 99999]`. -/
theorem rowTake_apply (x : FVec Ideal S100000x48 .f32) (v : IVec S1605632x1 32) (e : Fin 1605632) (c : Fin 48) :
    Host.gather gather_S100000x48_S1605632x1_S1605632x48_1_0_n_n_0_1_148 x v (ix2 e c)
      = x (ix2 ⟨min (v (ix2 e 0)).toInt.toNat 99999, by omega⟩ c) :=
  RowTake.rowGather_apply (by decide) gather_S100000x48_S1605632x1_S1605632x48_1_0_n_n_0_1_148_wf x v e c

/-- At an edge whose source number is in range the masked take reads the row that number names. -/
theorem takeT_apply (x : FVec Ideal S100000x48 .f32) (sp : IVec S1605632 32) (e : Fin 1605632) (c : Fin 48)
    (h : InRange (sp (ix1 e))) :
    takeT x sp (ix2 e c) = x (ix2 (rowOf (sp (ix1 e))) c) := by
  have hw := wrapRow_inRange h
  unfold takeT
  simp only [select_apply]
  -- the mask bit at (e, c) is the reduced range test in row e, which passes: the wrapped number is a row number
  rw [bcast_along_rows, rangeMask_apply _ e (by rw [wrapCol_apply]; exact hw), select_one, rowTake_apply]
  -- the clamp of the gather is the clamp of rowOf, on the same wrapped number
  refine congrArg (fun r : Fin 100000 => x (ix2 r c)) (Fin.ext ?_)
  show min (_ : BitVec 32).toInt.toNat 99999 = min (wrapRow (sp (ix1 e))).toInt.toNat 99999
  rw [wrapCol_apply]

end Cert.KernelIdeal.Terms

end
-- ==== Proof.KLayer.lean ====
/-
  The kernel's propagation step is `spread`.

  Read at an entry, the scatter from zeros is a sum over the 1605632 padded edges of the weighted taken rows whose
  destination is that entry's row. A padded edge has weight 0, so its term is `x[0, c] · 0 = 0` whatever `x` holds; a
  real edge's padded numbers and weight are its own, its source is in range, and its taken row is the row its source
  names. So the sum over the padded edges is the sum over the real ones, which is `spread`.
-/
import proofs.«430481_j77996606095425_1_alg».proof.Proof.KTerms
import proofs.«430481_j77996606095425_1_alg».proof.Proof.KTake
import proofs.«430481_j77996606095425_1_alg».proof.Proof.LibPadSum
import Idealize.ShloMosaic.Lib.StableHlo.Predicate
import Idealize.ShloMosaic.PureOps.Ideal.Laws

noncomputable section

open scoped BigOperators

namespace Cert.KernelIdeal.Terms

open Cert.KernelIdeal Cert.KernelIdeal.Gen Cert.Spread Idealize.ShloMosaic Idealize.ShloMosaic.ValueIdx

/-! ## The scatter's two constant operands at an entry -/

/-- The splat of the zero word over the node features is `0` at every entry. -/
theorem layer_zeros_apply (i : S100000x48.Idx) :
    broadcastInDim S100000x48 ![] bcast_S_S100000x48 (constant (F := Ideal) S_ .f32 0x00000000#32) i = 0 := by
  rw [StableHlo.Predicate.bcast_scalar bcast_S_S100000x48 h_S_]
  exact Ideal.ofBits_zero_f32

/-- The destination numbers kept as a column: row `e` of the column is entry `e` of the vector. -/
theorem layer_col_apply (dp : IVec S1605632 32) (e : Fin 1605632) :
    broadcastInDim S1605632x1 ![0] bcast_S1605632_S1605632x1_0 dp (ix2 e 0) = dp (ix1 e) := by
  unfold broadcastInDim
  congr 1
  funext a
  match a with
  | ⟨0, _⟩ =>
    rw [dif_neg (show ¬ S1605632.size ⟨0, by decide⟩ = 1 from by decide)]
    rfl

/-- The scatter, with the ideal instance's accumulating scatter and the dimension numbers of a scatter of whole rows in
    place of the program's record (the same fields). -/
theorem layer_scatT_eq (dp : IVec S1605632 32) (u : FVec Ideal S1605632x48 .f32) :
    scatT dp u = Ideal.hostScatterAdd
      (RowTake.rowScatterDims 100000 1605632 48 scatter_S100000x48_S1605632x1_S1605632x48_1_0_0_1_wf)
      (broadcastInDim S100000x48 ![] bcast_S_S100000x48 (constant (F := Ideal) S_ .f32 0x00000000#32))
      (broadcastInDim S1605632x1 ![0] bcast_S1605632_S1605632x1_0 dp) u := rfl

/-- The scatter from zeros read at `(n, c)`: the sum, over the padded edges whose destination number is `n`, of their
    entries in column `c`. -/
theorem scatT_apply (dp : IVec S1605632 32) (u : FVec Ideal S1605632x48 .f32) (n : Fin 100000) (c : Fin 48) :
    scatT dp u (ix2 n c) = ∑ e : Fin 1605632, if (dp (ix1 e)).toInt = (n.val : Int) then u (ix2 e c) else 0 := by
  rw [layer_scatT_eq, RowTake.rowScatterAdd_apply, layer_zeros_apply, zero_add]
  refine Finset.sum_congr rfl (fun e _ => ?_)
  rw [layer_col_apply]

/-! ## The padded operands at a real edge and at a padded one -/

/-- A real edge's padded number is its own. -/
theorem layer_padI_head (s : Fin 1600000 → BitVec 32) (hle : 1600000 ≤ 1605632) (e : Fin 1600000) :
    padI s (ix1 (Fin.castLE hle e)) = s e := by
  show (if h : e.val < 1600000 then s ⟨e.val, h⟩ else 0#32) = s e
  rw [dif_pos e.isLt]

/-- A real edge's padded weight is its own. -/
theorem layer_padW_head (w : Fin 1600000 → EReal) (hle : 1600000 ≤ 1605632) (e : Fin 1600000) :
    padW w (ix2 (Fin.castLE hle e) 0) = w e := by
  show (if h : e.val < 1600000 then w ⟨e.val, h⟩ else 0) = w e
  rw [dif_pos e.isLt]

/-- A padded edge's weight is zero. -/
theorem layer_padW_tail (w : Fin 1600000 → EReal) (k : Fin 1605632) (hk : 1600000 ≤ k.val) : padW w (ix2 k 0) = 0 := by
  show (if h : k.val < 1600000 then w ⟨k.val, h⟩ else 0) = 0
  rw [dif_neg (by omega)]

/-- The weighted rows at an entry: the taken entry times the weight in its edge's row of the column. -/
theorem layer_mulT_apply (g : FVec Ideal S1605632x48 .f32) (wc : FVec Ideal S1605632x1 .f32) (k : Fin 1605632) (c : Fin 48) :
    mulT g wc (ix2 k c) = g (ix2 k c) * wc (ix2 k 0) := rfl

/-- THE KERNEL'S PROPAGATION STEP IS `spread` when every source number is in range. -/
theorem layer_eq (src dst : Fin 1600000 → BitVec 32) (w : Fin 1600000 → EReal) (x : FVec Ideal S100000x48 .f32)
    (hsrc : ∀ e, InRange (src e)) :
    scatT (padI dst) (mulT (takeT x (padI src)) (padW w)) = spread src dst w x := by
  funext i
  obtain ⟨n, c, rfl⟩ : ∃ (n : Fin 100000) (c : Fin 48), i = ix2 n c := ⟨i 0, i 1, eq_ix2 i⟩
  rw [scatT_apply, spread_ix2]
  have hle : 1600000 ≤ 1605632 := by norm_num
  rw [PadSum.sum_fin_of_tail_zero hle]
  · -- a real edge: its padded numbers and weight are its own, and its source is in range
    refine Finset.sum_congr rfl (fun e _ => ?_)
    have hs : InRange (padI src (ix1 (Fin.castLE hle e))) := by rw [layer_padI_head]; exact hsrc e
    rw [layer_padI_head, layer_mulT_apply, takeT_apply x (padI src) (Fin.castLE hle e) c hs, layer_padI_head, layer_padW_head]
  · -- a padded edge: its weight is zero, so its product is zero whatever was taken
    intro k hk
    rw [layer_mulT_apply, layer_padW_tail w k hk, mul_zero, ite_self]

end Cert.KernelIdeal.Terms

end
-- ==== Proof.KValue.lean ====
/-
  The kernel's result is `averaged`.

  Reading the run back from its last boundary: the result array is the last accumulate region's `y + x · third`, whose
  `x` is the second propagation step and whose `y` is the second accumulate region's result; that one's `x` is the first
  propagation step and its `y` the first accumulate region's `0 + features · third`. Each propagation step is a masked take of
  the padded sources, the weighting, and the scatter onto the padded destinations, which is `spread` when every source number
  is in range; the second step takes its rows from the first step's result. The leading `0 +` drops out.
-/
import proofs.«430481_j77996606095425_1_alg».proof.Proof.KFold
import proofs.«430481_j77996606095425_1_alg».proof.Proof.KLayer
import proofs.«430481_j77996606095425_1_alg».proof.Proof.RunNamed

set_option maxRecDepth 16384

noncomputable section

namespace Cert.KernelIdeal.KValue

open Cert.KernelIdeal Cert.KernelIdeal.Gen Cert.KernelIdeal.Terms Cert.KernelIdeal.Fold Cert.Spread
open Idealize.ShloMosaic Idealize.ShloMosaic.TcCoe Idealize.ShloMosaic.ValueIdx Idealize.SL.Sem

variable (m : (ℓ : Loc nD τ sig) → Buf (Elt Ideal) ℓ) (ρ : Dev nD → PrngReg)

/-- The features, the source and destination numbers and the weights the program was launched with, on core `c`. -/
abbrev feat (c : Dev nD) : FVec Ideal S100000x48 .f32 := m ((c : Thread nD τ).loc main_arg0)
abbrev srcs (c : Dev nD) : Fin 1600000 → BitVec 32 := srcOf (m ((c : Thread nD τ).loc main_arg2))
abbrev dsts (c : Dev nD) : Fin 1600000 → BitVec 32 := dstOf (m ((c : Thread nD τ).loc main_arg2))
abbrev wts (c : Dev nD) : Fin 1600000 → EReal := wOf (m ((c : Thread nD τ).loc main_arg1))

/-- The first propagation step's result array holds `spread` of the features. -/
theorem step1 (c : Dev nD) (hsrc : ∀ e, InRange (srcs m c e)) :
    W11 m ρ c (Proc.devRef .tc main_v14) = spread (srcs m c) (dsts m c) (wts m c) (feat m c) := by
  rw [W11_v14, v5_at10, W7_v5, W10_v11, W9_v10, v7_at9, W7_v7, arg0_at8, W7_arg0, v4_at8, W7_v4]
  exact layer_eq _ _ _ _ hsrc

/-- The second propagation step's result array holds `spread` of the first step's result. -/
theorem step2 (c : Dev nD) (hsrc : ∀ e, InRange (srcs m c e)) :
    W15 m ρ c (Proc.devRef .tc main_v20)
      = spread (srcs m c) (dsts m c) (wts m c) (spread (srcs m c) (dsts m c) (wts m c) (feat m c)) := by
  rw [W15_v20, v5_at14, W7_v5, W14_v17, W13_v16, v7_at13, W7_v7, v14_at12, step1 m ρ c hsrc, v4_at12, W7_v4]
  exact layer_eq _ _ _ _ hsrc

/-- Three accumulations from an array of zeros: the leading `0 +` drops out. -/
theorem fma_chain (z f s₁ s₂ : FVec Ideal S100000x48 .f32) (hz : ∀ i, z i = 0) :
    fmaT (fmaT (fmaT z f) s₁) s₂ = fun i => (f i * third + s₁ i * third) + s₂ i * third := by
  funext i
  show ((z i + f i * third) + s₁ i * third) + s₂ i * third = _
  rw [hz, zero_add]

/-- The result array at the run's last boundary holds `averaged`. -/
theorem result_eq (c : Dev nD) (hsrc : ∀ e, InRange (srcs m c e)) :
    W16 m ρ c (Proc.devRef .tc main_v21) = averaged (srcs m c) (dsts m c) (wts m c) (feat m c) := by
  rw [W16_v21, step2 m ρ c hsrc, v15_at15, W12_v15, step1 m ρ c hsrc, v9_at11, W8_v9, W7_arg0]
  exact fma_chain _ _ _ _ (W7_v8 m ρ c)

/-- THE KERNEL'S RUN: every weakly fair execution terminates without a fault, the result array ends at `averaged` of the
    launch contents of the arguments, and the arguments end as launched, when every source number is in range. -/
theorem run_averaged (hsrc : ∀ c e, InRange (srcs m c e)) :
    θ_run (defs (F := Ideal)) (onTc (τ := τ) (main (F := Ideal))) ⟨m, fun _ => 0, ρ⟩ (fun r => ∀ c : Dev nD,
      r.2.mem ((c.tc : Thread nD τ).loc main_v21) = averaged (srcs m c) (dsts m c) (wts m c) (feat m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c (hsrc c)), (h c).2⟩)
    (Cert.KernelIdeal.GenNamed.run_named m ρ)

end Cert.KernelIdeal.KValue

end
-- ==== Proof.RefValue.lean ====
/-
  The reference's result is `averaged`.

  The reference wraps the source numbers, takes the rows they name (clamped), multiplies each by its edge's weight and
  scatters the products onto the destination rows, adding, from zeros: one propagation step, `spread`. It does so twice,
  the second time on the first step's result, and averages the features with both steps.
-/
import proofs.«430481_j77996606095425_1_alg».proof.Proof.Gen.ReferenceIdeal.Read
import proofs.«430481_j77996606095425_1_alg».proof.Proof.Spread
import proofs.«430481_j77996606095425_1_alg».proof.Proof.LibRowTake
import Idealize.ShloMosaic.PureOps.Ideal.Laws

noncomputable section

open scoped BigOperators

namespace Cert.ReferenceIdeal.RefValue

open Cert.ReferenceIdeal Cert.ReferenceIdeal.Gen Cert.Spread Idealize.ShloMosaic Idealize.ShloMosaic.ValueIdx

/-- Row 0 of the table of node numbers, sliced and flattened, is the sources at an edge. -/
theorem v3_at (x2 : IVec S2x1600000 32) (e : Fin 1600000) :
    Read.val_main_v3 (F := Ideal) x2 (ix1 e) = srcOf x2 e := by
  rw [Read.val_main_v3_apply, Read.val_main_v2_apply]
  unfold srcOf
  congr 1
  funext a
  refine Fin.ext ?_
  match a with
  | ⟨0, _⟩ => rfl
  | ⟨1, _⟩ => exact Nat.mod_eq_of_lt e.isLt

/-- Row 1, sliced and flattened, is the destinations at an edge. -/
theorem v5_at (x2 : IVec S2x1600000 32) (e : Fin 1600000) :
    Read.val_main_v5 (F := Ideal) x2 (ix1 e) = dstOf x2 e := by
  rw [Read.val_main_v5_apply, Read.val_main_v4_apply]
  unfold dstOf
  congr 1
  funext a
  refine Fin.ext ?_
  match a with
  | ⟨0, _⟩ => rfl
  | ⟨1, _⟩ => exact Nat.mod_eq_of_lt e.isLt

/-- The compare, add and select on the sources are the wrap of a signed row number, entry by entry. -/
theorem v10_at (x2 : IVec S2x1600000 32) (e : Fin 1600000) :
    Read.val_main_v10 (F := Ideal) x2 (ix1 e) = wrapRow (srcOf x2 e) := by
  rw [Read.val_main_v10_apply, Read.val_main_v7_apply, Read.val_main_v9_apply, Read.val_main_v6_apply,
    Read.val_main_v8_apply, Read.val_main_c_apply, Read.val_main_c_0_apply, v3_at]
  rfl

/-- The wrapped sources as a column. -/
theorem v11_at (x2 : IVec S2x1600000 32) (e : Fin 1600000) :
    Read.val_main_v11 (F := Ideal) x2 (ix2 e 0) = wrapRow (srcOf x2 e) := by
  rw [Read.val_main_v11_apply, ← v10_at]
  congr 1
  funext a
  match a with
  | ⟨0, _⟩ => rfl

/-- The destinations as a column. -/
theorem v17_at (x2 : IVec S2x1600000 32) (e : Fin 1600000) :
    Read.val_main_v17 (F := Ideal) x2 (ix2 e 0) = dstOf x2 e := by
  rw [Read.val_main_v17_apply, ← v5_at]
  congr 1
  funext a
  match a with
  | ⟨0, _⟩ => rfl

/-- The weights broadcast along the 48 features: every entry of row `e` is the weight of edge `e`. -/
theorem v14_at (x1 : FVec Ideal S1600000 .f32) (e : Fin 1600000) (c : Fin 48) :
    Read.val_main_v14 (F := Ideal) x1 (ix2 e c) = wOf x1 e := by
  rw [Read.val_main_v14_apply, Read.val_main_v13_apply]
  unfold wOf
  congr 1
  funext a
  match a with
  | ⟨0, _⟩ => rfl

/-- The rows the wrapped sources name: entry `(e, c)` of the gather is the matrix at the row `rowOf (src e)`. -/
theorem gather_at (x : FVec Ideal S100000x48 .f32) (x2 : IVec S2x1600000 32) (e : Fin 1600000) (c : Fin 48) :
    Host.gather gather_S100000x48_S1600000x1_S1600000x48_1_0_n_n_0_1_148 x (Read.val_main_v11 (F := Ideal) x2) (ix2 e c)
      = x (ix2 (rowOf (srcOf x2 e)) c) := by
  refine (RowTake.rowGather_apply (N := 100000) (R := 1600000) (C := 48) (by omega)
    gather_S100000x48_S1600000x1_S1600000x48_1_0_n_n_0_1_148_wf x (Read.val_main_v11 (F := Ideal) x2) e c).trans ?_
  congr 1
  funext a
  match a with
  | ⟨0, _⟩ =>
    exact Fin.ext (congrArg (fun v : BitVec 32 => min v.toInt.toNat 99999) (v11_at x2 e))
  | ⟨1, _⟩ => rfl

/-- The accumulating scatter through a column of row numbers, read at an entry: the operand's entry plus the update
    entries of that column whose row number, read signed, is the entry's row. -/
theorem scatterAdd_at (x : FVec Ideal S100000x48 .f32) (idx : IVec S1600000x1 32) (upd : FVec Ideal S1600000x48 .f32)
    (n : Fin 100000) (c : Fin 48) :
    Host.scatterAdd scatter_S100000x48_S1600000x1_S1600000x48_1_0_0_1 x idx upd (ix2 n c)
      = x (ix2 n c) + ∑ e : Fin 1600000, if (idx (ix2 e 0)).toInt = (n.val : Int) then upd (ix2 e c) else 0 :=
  RowTake.rowScatterAdd_apply (N := 100000) (R := 1600000) (C := 48) (w := 32)
    scatter_S100000x48_S1600000x1_S1600000x48_1_0_0_1_wf x idx upd n c

/-- The scatter's operand is zeros. -/
theorem v16_at (i : S100000x48.Idx) : Read.val_main_v16 (F := Ideal) i = 0 := by
  rw [Read.val_main_v16_apply, Read.val_main_cst_1_apply]
  exact Ideal.ofBits_zero_f32

/-- ONE PROPAGATION STEP of the reference, for any matrix in the gathered operand's place: gather the rows the wrapped
    sources name, scale row `e` by the weight of edge `e`, and add the products onto the destination rows, from zeros. -/
theorem step_eq (x : FVec Ideal S100000x48 .f32) (x1 : FVec Ideal S1600000 .f32) (x2 : IVec S2x1600000 32) :
    Host.scatterAdd scatter_S100000x48_S1600000x1_S1600000x48_1_0_0_1 (Read.val_main_v16 (F := Ideal))
      (Read.val_main_v17 (F := Ideal) x2)
      (mulf (Host.gather gather_S100000x48_S1600000x1_S1600000x48_1_0_n_n_0_1_148 x (Read.val_main_v11 (F := Ideal) x2))
        (Read.val_main_v14 (F := Ideal) x1))
      = spread (srcOf x2) (dstOf x2) (wOf x1) x := by
  funext i
  obtain ⟨n, c, rfl⟩ : ∃ (n : Fin 100000) (c : Fin 48), i = ix2 n c := ⟨i 0, i 1, eq_ix2 i⟩
  refine (scatterAdd_at _ _ _ n c).trans ?_
  refine Eq.trans ?_ (spread_ix2 (srcOf x2) (dstOf x2) (wOf x1) x n c).symm
  rw [v16_at, zero_add]
  refine Finset.sum_congr rfl (fun e _ => ?_)
  rw [v17_at, mulf_apply, gather_at, v14_at]

/-- The first scatter is one step from the features … -/
theorem v18_eq (x0 : FVec Ideal S100000x48 .f32) (x1 : FVec Ideal S1600000 .f32) (x2 : IVec S2x1600000 32) :
    Read.val_main_v18 (F := Ideal) x0 x1 x2 = spread (srcOf x2) (dstOf x2) (wOf x1) x0 :=
  step_eq x0 x1 x2

/-- … and the second is one step from the first: its index columns, weights and zeros are the first step's own terms. -/
theorem v38_eq (x0 : FVec Ideal S100000x48 .f32) (x1 : FVec Ideal S1600000 .f32) (x2 : IVec S2x1600000 32) :
    Read.val_main_v38 (F := Ideal) x0 x1 x2
      = spread (srcOf x2) (dstOf x2) (wOf x1) (Read.val_main_v18 (F := Ideal) x0 x1 x2) :=
  step_eq (Read.val_main_v18 (F := Ideal) x0 x1 x2) x1 x2

/-- The reference's result term is the average of the features with one and two propagation steps. -/
theorem result_eq (x0 : FVec Ideal S100000x48 .f32) (x1 : FVec Ideal S1600000 .f32) (x2 : IVec S2x1600000 32) :
    Cert.ReferenceIdeal.Read.val_main_v41 (F := Ideal) x0 x1 x2 = averaged (srcOf x2) (dstOf x2) (wOf x1) x0 := by
  funext i
  rw [Read.val_main_v41_apply, Read.val_main_v40_apply, Read.val_main_v21_apply, Read.val_main_v20_apply,
    Read.val_main_v1_apply, Read.val_main_v0_apply, Read.val_main_v19_apply, Read.val_main_v39_apply,
    Read.val_main_cst_apply, Read.val_main_cst_2_apply, Read.val_main_cst_6_apply, v38_eq, v18_eq]
  rw [Ideal.ofBits_def, Ideal.addf_def, Ideal.addf_def, Ideal.mulf_def, Ideal.mulf_def, Ideal.mulf_def]
  rfl

end Cert.ReferenceIdeal.RefValue

end
-- ==== Proof.PreRange.lean ====
/-
  What the precondition says of the source numbers.

  The precondition's last conjunct is the all-ones reduction of `(src ≥ −100000) ∧ (src < 100000)` over row 0 of the
  table of node numbers, both comparisons signed. Read back at one edge it says that edge's source number is in range.
-/
import proofs.«430481_j77996606095425_1_alg».proof.Defs
import proofs.«430481_j77996606095425_1_alg».proof.Proof.Gen.KernelIdeal
import proofs.«430481_j77996606095425_1_alg».proof.Proof.Gen.Pre_finite_inputs
import proofs.«430481_j77996606095425_1_alg».proof.Proof.Spread
import Idealize.ShloMosaic.Lib.ReduceAll
import Idealize.ShloMosaic.Lib.Pipeline.Value
import Idealize.ShloMosaic.Lib.StableHlo.Predicate

noncomputable section

namespace Cert.PreRange

open Cert.Spread Idealize.ShloMosaic Idealize.ShloMosaic.ValueIdx Idealize.SL.Sem

/-- The scalar shape has a single index. -/
instance subsingleton_scalarIdx : Subsingleton Cert.Pre_finite_inputs.S_.Idx := ⟨fun _ _ => funext fun d => d.elim0⟩

/-- Row 0 of the table of node numbers, cut out as a 1 × 1600000 slab and flattened, read at edge `e`, is the table's
    entry at `(0, e)`: the flattening keeps the row-major position `0 * 1600000 + e`, and the slab starts at the origin. -/
theorem row0_apply (a : IVec Cert.Pre_finite_inputs.S2x1600000 32)
    (hs : Cert.Pre_finite_inputs.S2x1600000.Slices ![0, 0] Cert.Pre_finite_inputs.S1x1600000)
    (hc : Cert.Pre_finite_inputs.S1x1600000.ShapeCasts Cert.Pre_finite_inputs.S1600000) (e : Fin 1600000) :
    shapeCast Cert.Pre_finite_inputs.S1600000 (extractStridedSlice Cert.Pre_finite_inputs.S1x1600000 ![0, 0] a hs) hc (ix1 e)
      = a (ix2 0 e) := by
  have he : e.val < 1600000 := e.isLt
  refine (shapeCast_apply _ hc (ix1 e) (ix2 (0 : Fin 1) e) ?_).trans ?_
  · rw [Shape.rowMajor_val_two, Shape.rowMajor_val_one]
    show 0 * 1600000 + e.val = e.val
    omega
  · refine extractStridedSlice_apply _ _ hs (ix2 (0 : Fin 1) e) (ix2 (0 : Fin 2) e) fun d => ?_
    match d with
    | ⟨0, _⟩ => rfl
    | ⟨1, _⟩ => show e.val = 0 + e.val; omega

/-- The two bounds as signed words. -/
theorem toInt_lo : (4294867296#32 : BitVec 32).toInt = -100000 := by decide
theorem toInt_hi : (100000#32 : BitVec 32).toInt = 100000 := by decide

/-- Under the precondition every edge's source number names a row, from the front or from the end. -/
theorem src_inRange (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 1600000) :
    InRange (srcOf (m ((c.tc : Thread Cert.KernelIdeal.nD Cert.KernelIdeal.τ).loc Cert.KernelIdeal.main_arg2)) e) := by
  have h := congrFun (hpre c) ValueIdx.ix0
  dsimp only [Cert.Pre_finite_inputs.fn, Cert.Pre_finite_inputs.fn_part1] at h
  -- the last conjunct: the all-ones reduction over the edges
  have hall := (IntOp.andi_eq_one.1 h).2
  -- read back at edge `e`
  have hbit := Host.reduce_andi_all _ _ _ _ _ hall (ix1 e)
  obtain ⟨hge, hlt⟩ := IntOp.andi_eq_one.1 hbit
  -- the two signed comparisons, as inequalities between integers
  have hge' := IntOp.cmpi_sge.1 hge
  have hlt' := IntOp.cmpi_slt.1 hlt
  -- the compared words: the broadcast bound is the bound itself, the flattened row 0 at `e` is the table at `(0, e)`
  rw [StableHlo.Predicate.bcast_scalar _ Cert.Pre_finite_inputs.Gen.h_S_, row0_apply] at hge' hlt'
  exact And.intro (le_of_eq_of_le toInt_lo.symm hge') (lt_of_lt_of_eq hlt' toInt_hi)

end Cert.PreRange

end
-- ==== Proof.lean ====
/-
  The kernel and the reference compute the same average of node features with one and two steps of propagation along
  weighted edges, on the extended reals.

  Both programs read a 2 × 1600000 table of signed node numbers (sources, destinations), 1600000 edge weights and the
  100000 × 48 features, and return `(f · third + spread f · third) + spread (spread f) · third`, where one step `spread x`
  sums, into each destination row, the source rows of `x` times their edges' weights (Proof/Spread.lean).

  The reference takes the rows a wrapped source number names after clamping it into the table. The kernel pads the edges to
  a multiple of its block size with edges of weight zero, takes the rows under a range mask (a number outside the table
  yields a junk row), weights them block by block, scatters them from zeros, and accumulates the average block by block
  starting from zero. The two agree exactly where the mask never fires, that is where every source number names a row
  from the front or from the end, which the precondition states; then the padded edges add `x · 0 = 0`, the scatter's sum
  over the padded edges is the sum over the real ones, and the leading `0 +` drops out.

  The three frames are the generated ones (the reference's from its generated run); the idealization rewrote nothing,
  so its statement is trivial.
-/
import proofs.«430481_j77996606095425_1_alg».proof.Defs
import proofs.«430481_j77996606095425_1_alg».proof.Proof.Gen.Kernel
import proofs.«430481_j77996606095425_1_alg».proof.Proof.Gen.Kernel.Skeleton
import proofs.«430481_j77996606095425_1_alg».proof.Proof.Gen.Kernel.Launch
import proofs.«430481_j77996606095425_1_alg».proof.Proof.Gen.Kernel.Points
import proofs.«430481_j77996606095425_1_alg».proof.Proof.Gen.Kernel.Frame
import proofs.«430481_j77996606095425_1_alg».proof.Proof.Gen.KernelIdeal
import proofs.«430481_j77996606095425_1_alg».proof.Proof.Gen.KernelIdeal.Skeleton
import proofs.«430481_j77996606095425_1_alg».proof.Proof.Gen.KernelIdeal.Launch
import proofs.«430481_j77996606095425_1_alg».proof.Proof.Gen.KernelIdeal.Points
import proofs.«430481_j77996606095425_1_alg».proof.Proof.Gen.KernelIdeal.Frame
import proofs.«430481_j77996606095425_1_alg».proof.Proof.Gen.ReferenceIdeal
import proofs.«430481_j77996606095425_1_alg».proof.Proof.Gen.ReferenceIdeal.Run
import proofs.«430481_j77996606095425_1_alg».proof.Proof.Gen.ReferenceIdeal.Read
import proofs.«430481_j77996606095425_1_alg».proof.Proof.Gen.Pre_finite_inputs
import proofs.«430481_j77996606095425_1_alg».proof.Proof.KValue
import proofs.«430481_j77996606095425_1_alg».proof.Proof.RefValue
import proofs.«430481_j77996606095425_1_alg».proof.Proof.PreRange
import Idealize.ShloMosaic.Adequacy
import Idealize.ShloMosaic.Init

noncomputable section

namespace Cert.Proof

open Idealize.ShloMosaic Idealize.ShloMosaic.TcCoe Idealize.SL.Sem Cert.Spread

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with `averaged` of the launch contents: the kernel by its
    run read back boundary by boundary (every source number in range, by the precondition), the reference by its generated
    run and the reading of its result term. -/
theorem algebraic : Cert.algebraic_KernelIdeal_ReferenceIdeal := by
  intro m ρ m' ρ' hpre hagree
  refine ⟨fun c => averaged (Cert.KernelIdeal.KValue.srcs m c) (Cert.KernelIdeal.KValue.dsts m c)
      (Cert.KernelIdeal.KValue.wts m c) (Cert.KernelIdeal.KValue.feat m c),
    Cert.KernelIdeal.KValue.run_averaged m ρ (fun c e => Cert.PreRange.src_inRange m hpre c e), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v41_eq, Cert.ReferenceIdeal.RefValue.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
